-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x12544 : Shape := ⟨3, ![8, 256, 12544]⟩
abbrev S_ : Shape := ⟨0, ![]⟩

class Facts : Prop where
  bcast_S_S8x256x12544 : S_.BroadcastsInDim S8x256x12544 (![] : Fin 0 → Fin S8x256x12544.rank)
  reducesTo_S8x256x12544_S_d0_1_2 : S8x256x12544.ReducesTo [0, 1, 2] S_
  h_S_ : 0 < S_.numel

variable [Facts]

def fn {F : FTy → Type} [FloatOps F] (main_arg0 : FVec F S8x256x12544 .f32) (main_arg1 : FVec F S8x256x12544 .f32) : IVec S_ 1 :=
  let main_v0 : FVec F S8x256x12544 .f32 := Host.absf main_arg0
  let main_cst : FVec F S_ .f32 := constant S_ .f32 0x7F800000#32
  let main_v1 : FVec F S8x256x12544 .f32 := broadcastInDim S8x256x12544 ![] bcast_S_S8x256x12544 main_cst
  let main_v2 : IVec S8x256x12544 1 := cmpf .olt main_v0 main_v1
  let main_c : IVec S_ 1 := constantI S_ 1 1#1
  let main_v3 : IVec S_ 1 := (fun x v => Host.reduce IntOp.andi x v reducesTo_S8x256x12544_S_d0_1_2 h_S_) main_v2 main_c
  let main_v4 : FVec F S8x256x12544 .f32 := Host.absf main_arg1
  let main_cst_0 : FVec F S_ .f32 := constant S_ .f32 0x7F800000#32
  let main_v5 : FVec F S8x256x12544 .f32 := broadcastInDim S8x256x12544 ![] bcast_S_S8x256x12544 main_cst_0
  let main_v6 : IVec S8x256x12544 1 := cmpf .olt main_v4 main_v5
  let main_c_1 : IVec S_ 1 := constantI S_ 1 1#1
  let main_v7 : IVec S_ 1 := (fun x v => Host.reduce IntOp.andi x v reducesTo_S8x256x12544_S_d0_1_2 h_S_) main_v6 main_c_1
  let main_v8 : IVec S_ 1 := andi main_v3 main_v7
  main_v8
-- ==== Kernel.lean ====
abbrev S8x256x12544 : Shape := ⟨3, ![8, 256, 12544]⟩
abbrev S8x1x256 : Shape := ⟨3, ![8, 1, 256]⟩
abbrev S1x128x12544 : Shape := ⟨3, ![1, 128, 12544]⟩
abbrev S1x1x128 : Shape := ⟨3, ![1, 1, 128]⟩
abbrev S128x12544 : Shape := ⟨2, ![128, 12544]⟩
abbrev S128 : Shape := ⟨1, ![128]⟩
abbrev S128x1 : Shape := ⟨2, ![128, 1]⟩
abbrev S1x128 : Shape := ⟨2, ![1, 128]⟩
abbrev S2x8x256x12544 : Shape := ⟨4, ![2, 8, 256, 12544]⟩
abbrev S1x64x12544 : Shape := ⟨3, ![1, 64, 12544]⟩
abbrev S1x256x12544 : Shape := ⟨3, ![1, 256, 12544]⟩
abbrev S1x1x256 : Shape := ⟨3, ![1, 1, 256]⟩
abbrev S2x1x64x12544 : Shape := ⟨4, ![2, 1, 64, 12544]⟩
abbrev S64x12544 : Shape := ⟨2, ![64, 12544]⟩
abbrev S256x12544 : Shape := ⟨2, ![256, 12544]⟩
abbrev S1x256 : Shape := ⟨2, ![1, 256]⟩
abbrev S64 : Shape := ⟨1, ![64]⟩
abbrev S64x1 : Shape := ⟨2, ![64, 1]⟩
abbrev S64x256 : Shape := ⟨2, ![64, 256]⟩
abbrev S1x1x64x12544 : Shape := ⟨4, ![1, 1, 64, 12544]⟩
abbrev S4096x12544 : Shape := ⟨2, ![4096, 12544]⟩

abbrev nBuf : Space → Nat
  | .hbm => 6
  | .vmem => 14
  | .smem => 0
  | _ => 0

abbrev bufTy : (tb : Table) → Fin (tcTables nBuf tb) → BufTy
  | .hbm, ⟨0, _⟩ => ⟨S8x256x12544, .f32⟩
  | .hbm, ⟨1, _⟩ => ⟨S8x256x12544, .f32⟩
  | .hbm, ⟨2, _⟩ => ⟨S8x256x12544, .bf16⟩
  | .hbm, ⟨3, _⟩ => ⟨S8x1x256, .f32⟩
  | .hbm, ⟨4, _⟩ => ⟨S2x8x256x12544, .f32⟩
  | .hbm, ⟨5, _⟩ => ⟨S4096x12544, .f32⟩
  | .local _ .vmem, ⟨0, _⟩ => ⟨S1x128x12544, .f32⟩
  | .local _ .vmem, ⟨1, _⟩ => ⟨S1x128x12544, .f32⟩
  | .local _ .vmem, ⟨2, _⟩ => ⟨S1x128x12544, .bf16⟩
  | .local _ .vmem, ⟨3, _⟩ => ⟨S1x128x12544, .bf16⟩
  | .local _ .vmem, ⟨4, _⟩ => ⟨S1x1x128, .f32⟩
  | .local _ .vmem, ⟨5, _⟩ => ⟨S1x1x128, .f32⟩
  | .local _ .vmem, ⟨6, _⟩ => ⟨S1x64x12544, .f32⟩
  | .local _ .vmem, ⟨7, _⟩ => ⟨S1x64x12544, .f32⟩
  | .local _ .vmem, ⟨8, _⟩ => ⟨S1x256x12544, .bf16⟩
  | .local _ .vmem, ⟨9, _⟩ => ⟨S1x256x12544, .bf16⟩
  | .local _ .vmem, ⟨10, _⟩ => ⟨S1x1x256, .f32⟩
  | .local _ .vmem, ⟨11, _⟩ => ⟨S1x1x256, .f32⟩
  | .local _ .vmem, ⟨12, _⟩ => ⟨S2x1x64x12544, .f32⟩
  | .local _ .vmem, ⟨13, _⟩ => ⟨S2x1x64x12544, .f32⟩
  | _, _ => ⟨S8x256x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x12544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S1x64x12544 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x12544 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x1x64x12544 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x128x12544_S1x128x12544_0_0_0 : ∀ a, (![0, 0, 0] : Fin 3 → Nat) a + S1x128x12544.size a ≤ S1x128x12544.size a
  h_S1x128x12544 : 0 < S1x128x12544.numel
  shapeCasts_S1x128x12544_S128x12544 : S1x128x12544.ShapeCasts S128x12544
  bitsLt_bf16_f32 : FTy.bits .bf16 < FTy.bits .f32
  shapeCasts_S128x12544_S1x128x12544 : S128x12544.ShapeCasts S1x128x12544
  packedbf16_S1x128x12544_S1x128x12544_0_0_0 : (Rect.unit (s := S1x128x12544) ![0, 0, 0] S1x128x12544.size inb_S1x128x12544_S1x128x12544_0_0_0).PackedRows (EltTy.packing .bf16)
  reduces_S128x12544_S128 : S128x12544.Reduces [1] S128
  shapeCasts_S128_S128x1 : S128.ShapeCasts S128x1
  transposes_S128x1_p1_0_S1x128 : S128x1.Transposes [1, 0] S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x64x12544_S1x64x12544_0_0_0 : ∀ a, (![0, 0, 0] : Fin 3 → Nat) a + S1x64x12544.size a ≤ S1x64x12544.size a
  h_S1x64x12544 : 0 < S1x64x12544.numel
  shapeCasts_S1x64x12544_S64x12544 : S1x64x12544.ShapeCasts S64x12544
  inb_S1x256x12544_S1x256x12544_0_0_0 : ∀ a, (![0, 0, 0] : Fin 3 → Nat) a + S1x256x12544.size a ≤ S1x256x12544.size a
  h_S1x256x12544 : 0 < S1x256x12544.numel
  shapeCasts_S1x256x12544_S256x12544 : S1x256x12544.ShapeCasts S256x12544
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  reduces_S64x12544_S64 : S64x12544.Reduces [1] S64
  shapeCasts_S64_S64x1 : S64.ShapeCasts S64x1
  broadcasts_S64x1_S64x256 : S64x1.Broadcasts S64x256
  broadcasts_S1x256_S64x256 : S1x256.Broadcasts S64x256
  reduces_S64x256_S64 : S64x256.Reduces [1] S64
  inb_S2x1x64x12544_S1x1x64x12544_0_0_0_0 : ∀ a, (![0, 0, 0, 0] : Fin 4 → Nat) a + S1x1x64x12544.size a ≤ S2x1x64x12544.size a
  h_S1x1x64x12544 : 0 < S1x1x64x12544.numel
  shapeCasts_S1x1x64x12544_S64x12544 : S1x1x64x12544.ShapeCasts S64x12544
  shapeCasts_S64x12544_S1x1x64x12544 : S64x12544.ShapeCasts S1x1x64x12544
  inb_S2x1x64x12544_S1x1x64x12544_1_0_0_0 : ∀ a, (![1, 0, 0, 0] : Fin 4 → Nat) a + S1x1x64x12544.size a ≤ S2x1x64x12544.size a
  shapeCasts_S2x8x256x12544_S4096x12544 : S2x8x256x12544.ShapeCasts S4096x12544
  dot_S64x12544_S256x12544_S64x256_1_1_0_0_n_n_wf : DotDims.WF S64x12544 S256x12544 S64x256 [1] [1] [0] [0] [] []
  dot_S64x256_S256x12544_S64x12544_1_0_0_1_n_n_wf : DotDims.WF S64x256 S256x12544 S64x12544 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x12544.size a ≤ S8x256x12544.size a
  hwx0_0 : ∀ i : grid0.Coords, EltTy.bits .f32 = 32 ∨ (Rect.block (s := S8x256x12544) S1x128x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x12544.size a ≤ S8x256x12544.size a
  hwx0_1 : ∀ i : grid0.Coords, EltTy.bits .bf16 = 32 ∨ (Rect.block (s := S8x256x12544) S1x128x12544.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x256.size a
  hwx0_2 : ∀ i : grid0.Coords, EltTy.bits .f32 = 32 ∨ (Rect.block (s := S8x1x256) S1x1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x12544.size a ≤ S8x256x12544.size a
  hwx1_0 : ∀ i : grid1.Coords, EltTy.bits .f32 = 32 ∨ (Rect.block (s := S8x256x12544) S1x64x12544.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x12544.size a ≤ S8x256x12544.size a
  hwx1_1 : ∀ i : grid1.Coords, EltTy.bits .bf16 = 32 ∨ (Rect.block (s := S8x256x12544) S1x256x12544.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S8x1x256.size a
  hwx1_2 : ∀ i : grid1.Coords, EltTy.bits .f32 = 32 ∨ (Rect.block (s := S8x1x256) S1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x1x64x12544.size a ≤ S2x8x256x12544.size a
  hwx1_3 : ∀ i : grid1.Coords, EltTy.bits .f32 = 32 ∨ (Rect.block (s := S2x8x256x12544) S2x1x64x12544.size (cc1_transform_3 i) (hinb1_3 i)).WholeWords (EltTy.packing .f32)

variable [Facts₀]

def dot_S64x12544_S256x12544_S64x256_1_1_0_0_n_n : DotDims S64x12544 S256x12544 S64x256 where
  lhsContracting := [1]
  rhsContracting := [1]
  lhsNonContracting := [0]
  rhsNonContracting := [0]
  lhsBatch := []
  rhsBatch := []
  wf := dot_S64x12544_S256x12544_S64x256_1_1_0_0_n_n_wf
def dot_S64x256_S256x12544_S64x12544_1_0_0_1_n_n : DotDims S64x256 S256x12544 S64x12544 where
  lhsContracting := [1]
  rhsContracting := [0]
  lhsNonContracting := [0]
  rhsNonContracting := [1]
  lhsBatch := []
  rhsBatch := []
  wf := dot_S64x256_S256x12544_S64x12544_1_0_0_1_n_n_wf

abbrev win0_0 : Pipeline.Window sig grid0 :=
  Pipeline.Window.ofSpec (Memref.whole main_arg1) S1x128x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x128x12544.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x64x12544.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x256x12544.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S2x1x64x12544.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x256x12544 : Shape := ⟨3, ![8, 256, 12544]⟩
abbrev S_ : Shape := ⟨0, ![]⟩
abbrev S8x256 : Shape := ⟨2, ![8, 256]⟩
abbrev S8x256x256 : Shape := ⟨3, ![8, 256, 256]⟩
abbrev S8x256x1 : Shape := ⟨3, ![8, 256, 1]⟩
abbrev S8x1x256 : Shape := ⟨3, ![8, 1, 256]⟩
abbrev S2048x12544 : Shape := ⟨2, ![2048, 12544]⟩
abbrev S4096x12544 : Shape := ⟨2, ![4096, 12544]⟩

abbrev nBuf : Space → Nat
  | .hbm => 39
  | .vmem => 0
  | .smem => 0
  | _ => 0

abbrev bufTy : (tb : Table) → Fin (tcTables nBuf tb) → BufTy
  | .hbm, ⟨0, _⟩ => ⟨S8x256x12544, .f32⟩
  | .hbm, ⟨1, _⟩ => ⟨S8x256x12544, .f32⟩
  | .hbm, ⟨2, _⟩ => ⟨S8x256x12544, .f32⟩
  | .hbm, ⟨3, _⟩ => ⟨S_, .f32⟩
  | .hbm, ⟨4, _⟩ => ⟨S8x256, .f32⟩
  | .hbm, ⟨5, _⟩ => ⟨S8x256x12544, .f32⟩
  | .hbm, ⟨6, _⟩ => ⟨S_, .f32⟩
  | .hbm, ⟨7, _⟩ => ⟨S8x256, .f32⟩
  | .hbm, ⟨8, _⟩ => ⟨S8x256x256, .f32⟩
  | .hbm, ⟨9, _⟩ => ⟨S8x256x1, .f32⟩
  | .hbm, ⟨10, _⟩ => ⟨S8x1x256, .f32⟩
  | .hbm, ⟨11, _⟩ => ⟨S8x256x256, .f32⟩
  | .hbm, ⟨12, _⟩ => ⟨S8x256x256, .f32⟩
  | .hbm, ⟨13, _⟩ => ⟨S8x256x256, .f32⟩
  | .hbm, ⟨14, _⟩ => ⟨S_, .f32⟩
  | .hbm, ⟨15, _⟩ => ⟨S8x256x256, .f32⟩
  | .hbm, ⟨16, _⟩ => ⟨S8x256x256, .f32⟩
  | .hbm, ⟨17, _⟩ => ⟨S8x256x256, .f32⟩
  | .hbm, ⟨18, _⟩ => ⟨S_, .f32⟩
  | .hbm, ⟨19, _⟩ => ⟨S8x256x256, .f32⟩
  | .hbm, ⟨20, _⟩ => ⟨S8x256x256, .f32⟩
  | .hbm, ⟨21, _⟩ => ⟨S_, .f32⟩
  | .hbm, ⟨22, _⟩ => ⟨S8x256, .f32⟩
  | .hbm, ⟨23, _⟩ => ⟨S_, .f32⟩
  | .hbm, ⟨24, _⟩ => ⟨S8x256, .f32⟩
  | .hbm, ⟨25, _⟩ => ⟨S8x256, .f32⟩
  | .hbm, ⟨26, _⟩ => ⟨S8x256x1, .f32⟩
  | .hbm, ⟨27, _⟩ => ⟨S8x256x256, .f32⟩
  | .hbm, ⟨28, _⟩ => ⟨S8x256x256, .f32⟩
  | .hbm, ⟨29, _⟩ => ⟨S8x256x256, .f32⟩
  | .hbm, ⟨30, _⟩ => ⟨S_, .f32⟩
  | .hbm, ⟨31, _⟩ => ⟨S8x256, .f32⟩
  | .hbm, ⟨32, _⟩ => ⟨S8x256x1, .f32⟩
  | .hbm, ⟨33, _⟩ => ⟨S8x256x256, .f32⟩
  | .hbm, ⟨34, _⟩ => ⟨S8x256x256, .f32⟩
  | .hbm, ⟨35, _⟩ => ⟨S8x256x12544, .f32⟩
  | .hbm, ⟨36, _⟩ => ⟨S2048x12544, .f32⟩
  | .hbm, ⟨37, _⟩ => ⟨S2048x12544, .f32⟩
  | .hbm, ⟨38, _⟩ => ⟨S4096x12544, .f32⟩
  | _, _ => ⟨S8x256x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  reducesTo_S8x256x12544_S8x256_d2 : S8x256x12544.ReducesTo [2] S8x256
  h_S_ : 0 < S_.numel
  bcast_S8x256_S8x256x1_0_1 : S8x256.BroadcastsInDim S8x256x1 (![0, 1] : Fin 2 → Fin S8x256x1.rank)
  bcast_S8x256_S8x1x256_0_2 : S8x256.BroadcastsInDim S8x1x256 (![0, 2] : Fin 2 → Fin S8x1x256.rank)
  bcast_S8x256x1_S8x256x256_0_1_2 : S8x256x1.BroadcastsInDim S8x256x256 (![0, 1, 2] : Fin 3 → Fin S8x256x256.rank)
  bcast_S8x1x256_S8x256x256_0_1_2 : S8x1x256.BroadcastsInDim S8x256x256 (![0, 1, 2] : Fin 3 → Fin S8x256x256.rank)
  bcast_S_S8x256x256 : S_.BroadcastsInDim S8x256x256 (![] : Fin 0 → Fin S8x256x256.rank)
  reducesTo_S8x256x256_S8x256_d2 : S8x256x256.ReducesTo [2] S8x256
  bcast_S_S8x256 : S_.BroadcastsInDim S8x256 (![] : Fin 0 → Fin S8x256.rank)
  shapeCasts_S8x256x12544_S2048x12544 : S8x256x12544.ShapeCasts S2048x12544
  concatenates_S2048x12544_S2048x12544_S4096x12544_d0 : Shape.Concatenates [S2048x12544, S2048x12544] S4096x12544 0
  dot_S8x256x12544_S8x256x12544_S8x256x256_2_2_1_1_0_0_wf : DotDims.WF S8x256x12544 S8x256x12544 S8x256x256 [2] [2] [1] [1] [0] [0]
  dot_S8x256x256_S8x256x12544_S8x256x12544_2_1_1_2_0_0_wf : DotDims.WF S8x256x256 S8x256x12544 S8x256x12544 [2] [1] [1] [2] [0] [0]

variable [Facts₀]

def dot_S8x256x12544_S8x256x12544_S8x256x256_2_2_1_1_0_0 : DotDims S8x256x12544 S8x256x12544 S8x256x256 where
  lhsContracting := [2]
  rhsContracting := [2]
  lhsNonContracting := [1]
  rhsNonContracting := [1]
  lhsBatch := [0]
  rhsBatch := [0]
  wf := dot_S8x256x12544_S8x256x12544_S8x256x256_2_2_1_1_0_0_wf
def dot_S8x256x256_S8x256x12544_S8x256x12544_2_1_1_2_0_0 : DotDims S8x256x256 S8x256x12544 S8x256x12544 where
  lhsContracting := [2]
  rhsContracting := [1]
  lhsNonContracting := [1]
  rhsNonContracting := [2]
  lhsBatch := [0]
  rhsBatch := [0]
  wf := dot_S8x256x256_S8x256x12544_S8x256x12544_2_1_1_2_0_0_wf

class Facts : Prop extends Facts₀ where

variable [Facts]
-- ==== Proof.Spec.lean ====
/-
  What both programs compute, index by index, on the extended reals.

  `U` and `V` are the two feature arrays, eight pairs of 256 rows of 12544 features. For a pair `p`, a row `u` of `U`
  and a row `j` of `V`:
    `sq X p r`      the squared norm of row `r` of `X`:            Σ_k X[p,r,k]²
    `cross p u j`   the inner product of the two rows:               Σ_k U[p,u,k]·V[p,j,k]
    `dist p u j`    the scaled squared distance:                     ((sq U p u + sq V p j) − two·cross p u j)·coef
    `top p u`       the largest distance of row `u` (from −∞):       max_j dist p u j
    `wt p u j`      the unnormalized softmax weight:                 exp (dist p u j − top p u)
    `tot p u`       their total:                                     Σ_j wt p u j
    `score p u j`   the softmax weight:                              wt p u j / tot p u
    `blend p u f`   the weighted mixture of `V`'s rows at feature f:  Σ_j score p u j · V[p,j,f]
  The result has 4096 rows: the first 2048 are `U`'s rows (pair-major), the last 2048 the mixtures' rows.
  `two`, `coef` and `negInf` are the float words of 2, of the f32 nearest 0.1 and of −∞, read as extended reals and
  never evaluated: the same words stand on both sides.
-/
import Idealize.ShloMosaic.PureOps.Ideal
import Idealize.ShloMosaic.Lib.ValueIdx

noncomputable section

namespace Cert.SoftKnn

open Idealize.ShloMosaic Idealize.ShloMosaic.ValueIdx

/-- An array of eight pairs × 256 rows × 12544 features, as a function of its index. -/
abbrev Feat : Type := (⟨3, ![8, 256, 12544]⟩ : Shape).Idx → EReal

abbrev two : EReal := Ideal.ofBits .f32 0x40000000#32
abbrev coef : EReal := Ideal.ofBits .f32 0x3DCCCCCD#32
abbrev negInf : EReal := Ideal.ofBits .f32 0xFF800000#32

/-- The squared norm of row `r` of pair `p`. -/
def sq (X : Feat) (p : Fin 8) (r : Fin 256) : EReal := ∑ k : Fin 12544, X (ix3 p r k) * X (ix3 p r k)

/-- The inner product of row `u` of `U` and row `j` of `V`, in pair `p`. -/
def cross (U V : Feat) (p : Fin 8) (u j : Fin 256) : EReal := ∑ k : Fin 12544, U (ix3 p u k) * V (ix3 p j k)

/-- The scaled squared distance ‖u‖² + ‖v‖² − 2 u·v, times the coefficient. -/
def dist (U V : Feat) (p : Fin 8) (u j : Fin 256) : EReal := (sq U p u + sq V p j - two * cross U V p u j) * coef

/-- The row's largest distance, folded from −∞. -/
def top (U V : Feat) (p : Fin 8) (u : Fin 256) : EReal :=
  (Finset.univ : Finset (Fin 256)).fold max negInf (fun j => dist U V p u j)

/-- The unnormalized softmax weight. -/
def wt (U V : Feat) (p : Fin 8) (u j : Fin 256) : EReal := Ideal.exp (dist U V p u j - top U V p u)

/-- The row's total weight. -/
def tot (U V : Feat) (p : Fin 8) (u : Fin 256) : EReal := ∑ j : Fin 256, wt U V p u j

/-- The softmax weight. -/
def score (U V : Feat) (p : Fin 8) (u j : Fin 256) : EReal := Ideal.div (wt U V p u j) (tot U V p u)

/-- The mixture of `V`'s rows under row `u`'s softmax weights, at feature `f`. -/
def blend (U V : Feat) (p : Fin 8) (u : Fin 256) (f : Fin 12544) : EReal := ∑ j : Fin 256, score U V p u j * V (ix3 p j f)

/-- Row `r` of the `q`-th tile of 64 rows: row `64 q + r` of the 256. -/
def tileRow (q : Fin 4) (r : Fin 64) : Fin 256 := ⟨q.val * 64 + r.val, by have := q.isLt; have := r.isLt; omega⟩

/-- The squared norms of `V`'s rows laid out as the first kernel writes them: pair × 1 × row. -/
def sqRow (V : Feat) : (⟨3, ![8, 1, 256]⟩ : Shape).Idx → EReal := fun i => sq V (i 0) (i 2)

/-- The second kernel's output array: plane 0 is `U`, plane 1 the mixtures. -/
def planes (U V : Feat) : (⟨4, ![2, 8, 256, 12544]⟩ : Shape).Idx → EReal := fun i =>
  if (i 0).val = 0 then U (ix3 (i 1) (i 2) (i 3)) else blend U V (i 1) (i 2) (i 3)

/-- The result: rows 0‥2047 are `U`'s rows, pair-major; rows 2048‥4095 the mixtures' rows in the same order. -/
def result (U V : Feat) : (⟨2, ![4096, 12544]⟩ : Shape).Idx → EReal := fun i =>
  if h : (i 0).val < 2048 then
    U (ix3 (⟨(i 0).val / 256, by omega⟩ : Fin 8) (⟨(i 0).val % 256, Nat.mod_lt _ (by decide)⟩ : Fin 256) (i 1))
  else
    blend U V (⟨((i 0).val - 2048) / 256, by have h0 : (i 0).val < 4096 := (i 0).isLt; show ((i 0).val - 2048) / 256 < 8; omega⟩ : Fin 8)
      (⟨((i 0).val - 2048) % 256, Nat.mod_lt _ (by decide)⟩ : Fin 256) (i 1)

end Cert.SoftKnn

end
-- ==== Proof.Prep.lean ====
/-
  The first kernel's two output arrays, as functions of the array it reads.
-/
import proofs.«421647_j80590766342750_3_alg».proof.Proof.Gen.KernelIdeal.Frame
import proofs.«421647_j80590766342750_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Prep

open Cert.KernelIdeal Cert.KernelIdeal.Gen Cert.SoftKnn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a rank-3 access, spelt as the constant function. -/
private theorem zero3 : (![0, 0, 0] : Fin 3 → Nat) = fun _ => 0 := funext fun a => by fin_cases a <;> rfl

/-- The narrowed copy a point stores is, at the extended reals, the block it loaded. -/
theorem copy_apply (x0 : Vec Ideal S1x128x12544 .f32) (y : S1x128x12544.Idx) : out0_1 x0 y = x0 y := by
  unfold out0_1
  rw [View.canon_unit_zero zero3, View.ld_unit_zero (S := S1x128x12544) zero3]
  unfold k0_pay2 k0_pay1
  -- at the extended reals the narrowing is the identity, and the two changes of shape undo each other
  show shapeCast S1x128x12544 (shapeCast S128x12544 x0 shapeCasts_S1x128x12544_S128x12544) shapeCasts_S128x12544_S1x128x12544 y = x0 y
  rw [shapeCast_shapeCast]

/-- The row of squared norms a point stores: entry `j` is the sum of the squares of row `j` of the block it loaded. -/
theorem norms_apply (x0 : Vec Ideal S1x128x12544 .f32) (j : Fin 128) :
    out0_2 x0 (ix3 (0 : Fin 1) (0 : Fin 1) j) = ∑ k : Fin 12544, x0 (ix3 (0 : Fin 1) j k) * x0 (ix3 (0 : Fin 1) j k) := by
  unfold out0_2
  rw [View.canon_unit_zero (S := S1x1x128) zero3, View.ld_unit_zero (S := S1x128x12544) zero3]
  unfold k0_pay3 k0_pay1
  -- the layout chain, outermost first: [1,1,128] ← [1,128] ← [128,1] ← [128]
  refine (shapeCast_apply _ shapeCasts_S1x128_S1x1x128 (ix3 (0 : Fin 1) (0 : Fin 1) j) (ix2 (0 : Fin 1) j) ?_).trans ?_
  · rw [Shape.rowMajor_val_two, Shape.rowMajor_val_three]
    show 0 * 128 + j.val = (0 * 1 + 0) * 128 + j.val
    omega
  refine (transpose_apply [1, 0] _ transposes_S128x1_p1_0_S1x128 (ix2 (0 : Fin 1) j) (ix2 j (0 : Fin 1)) ?_).trans ?_
  · intro b
    match b with
    | ⟨0, _⟩ => rfl
    | ⟨1, _⟩ => rfl
  refine (shapeCast_apply _ shapeCasts_S128_S128x1 (ix2 j (0 : Fin 1)) (ix1 j) ?_).trans ?_
  · rw [Shape.rowMajor_val_one, Shape.rowMajor_val_two]
    show j.val = j.val * 1 + 0
    omega
  -- the reduction over the feature axis is the sum over its 12544 coordinates
  refine (Ideal.multiReduction_add_single _ _ reduces_S128x12544_S128 (.inl rfl) rfl (ix1 j)).trans ?_
  refine Finset.sum_congr rfl fun k _ => ?_
  rw [mulf_apply]
  have e : shapeCast S128x12544 x0 shapeCasts_S1x128x12544_S128x12544 (reduces_S128x12544_S128.lift (ix1 j) k)
      = x0 (ix3 (0 : Fin 1) j k) := by
    refine shapeCast_apply x0 shapeCasts_S1x128x12544_S128x12544 _ (ix3 (0 : Fin 1) j k) ?_
    rw [Shape.rowMajor_val_three, Shape.rowMajor_val_two]
    show (0 * 128 + j.val) * 12544 + k.val = j.val * 12544 + k.val
    omega
  rw [e]

/-! ## The copy, block by block

A point (p, h) of the 8 × 2 grid loads rows 128 h … 128 h + 127 of pair p and stores its copy of them at the same
place of the first output array, so the points' blocks tile that array and it ends as the array read. -/

/-- The index maps of the loaded block and of the stored copy agree on every axis, and stay in their ranges. -/
private theorem idx_copy : ∀ t : Fin cfg0.N,
    win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) ≤ 7 ∧ win0_1.index t (1 : Fin 3) ≤ 1 ∧ win0_1.index t (2 : Fin 3) = 0 :=
  (by decide +kernel : ∀ t : Fin grid0.N, _)

/-- Every block (pair, half) of the first output array is some point's. -/
private theorem onto_copy : ∀ (q0 : Fin 8) (q1 : Fin 2), ∃ t : Fin cfg0.N, win0_1.index t = ![q0.val, q1.val, 0] :=
  (by decide +kernel : ∀ (q0 : Fin 8) (q1 : Fin 2), ∃ t : Fin grid0.N, win0_1.index t = ![q0.val, q1.val, 0])

/-- What a point writes back to the first output array is its block of the array read. -/
private theorem flushed_copy (c : Dev nD) (t : Fin cfg0.N) :
    (dat0 (F := Ideal) V c).flushed 1 t
      = ((cfg0.win 1).blk t).view.read (Elt Ideal) (fun i : S8x256x12544.Idx => V c main_arg1 i) := by
  show (cfg0.win 1).cut (grid0.coords t) ((dat0 V c).after 1 t) = _
  rw [after0_1]
  obtain ⟨e0, e1, e2, -⟩ := idx_copy t
  funext y
  show out0_1 (iblk0 V c 0 t) y = V c main_arg1 (((cfg0.win 1).blk t).view.emb y)
  refine (copy_apply (iblk0 V c 0 t) y).trans ?_
  show V c main_arg1 (((cfg0.win 0).blk t).view.emb y) = V c main_arg1 (((cfg0.win 1).blk t).view.emb y)
  refine congrArg _ (funext fun a => Fin.ext ?_)
  match a with
  | ⟨0, _⟩ =>
    show win0_0.index t (0 : Fin 3) * 1 + 1 * (y 0).val = win0_1.index t (0 : Fin 3) * 1 + 1 * (y 0).val
    omega
  | ⟨1, _⟩ =>
    show win0_0.index t (1 : Fin 3) * 128 + 1 * (y 1).val = win0_1.index t (1 : Fin 3) * 128 + 1 * (y 1).val
    omega
  | ⟨2, _⟩ =>
    show win0_0.index t (2 : Fin 3) * 12544 + 1 * (y 2).val = win0_1.index t (2 : Fin 3) * 12544 + 1 * (y 2).val
    omega

/-- An index of the first output array is in a point's block iff each coordinate is in the block's range on its axis. -/
private theorem mem_blk_copy (t : Fin cfg0.N) (i : S8x256x12544.Idx) :
    i ∈ ((cfg0.win 1).blk t).view.set ↔ ∀ a : Fin 3, win0_1.index t a * S1x128x12544.size a ≤ (i a).val
      ∧ (i a).val < win0_1.index t a * S1x128x12544.size a + S1x128x12544.size a := by
  show i ∈ ((View.whole main_v0_0).slice (win0_1.rect t)).set ↔ _
  rw [View.set_slice_whole, Rect.mem_set_unit]
  exact Iff.rfl

/-- Row r of pair p lies in the block of the point (p, r / 128). -/
private theorem cover_copy (i : S8x256x12544.Idx) :
    ∃ t : Fin cfg0.N, (cfg0.win 1).flush t = true ∧ i ∈ ((cfg0.win 1).blk t).view.set := by
  have hi0 : (i 0).val < 8 := (i 0).isLt
  have hi1 : (i 1).val < 256 := (i 1).isLt
  have hi2 : (i 2).val < 12544 := (i 2).isLt
  obtain ⟨t, ht⟩ := onto_copy ⟨(i 0).val, hi0⟩ ⟨(i 1).val / 128, by omega⟩
  have q0 : win0_1.index t (0 : Fin 3) = (i 0).val := congrFun ht 0
  have q1 : win0_1.index t (1 : Fin 3) = (i 1).val / 128 := congrFun ht 1
  have q2 : win0_1.index t (2 : Fin 3) = 0 := congrFun ht 2
  refine ⟨t, flush0_1 t, ?_⟩
  rw [mem_blk_copy]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 128 ≤ (i 1).val ∧ (i 1).val < win0_1.index t (1 : Fin 3) * 128 + 128
    omega
  | ⟨2, _⟩ =>
    show win0_1.index t (2 : Fin 3) * 12544 ≤ (i 2).val ∧ (i 2).val < win0_1.index t (2 : Fin 3) * 12544 + 12544
    omega

/-- After the first kernel's run its first output array holds the array it read. -/
theorem copy_arr (c : Dev nD) :
    (dat0 (F := Ideal) V c).arrAt 1 cfg0.N = (fun i : S8x256x12544.Idx => V c main_arg1 i) :=
  (dat0 (F := Ideal) V c).arrAt_eq_of_cover 1 (fun i : S8x256x12544.Idx => V c main_arg1 i)
    (fun t _ => flushed_copy V c t) cover_copy

/-! ## The norms, block by block

The same point (p, h) stores the 128 squared norms of its rows at entries 128 h … 128 h + 127 of row p of the second
output array, so the points' blocks tile that array too and it ends as the squared norms of every row. -/

/-- The row of norms at any index of the stored block: its first two coordinates can only be 0. -/
private theorem norms_point (x0 : Vec Ideal S1x128x12544 .f32) (y : S1x1x128.Idx) :
    out0_2 x0 y = ∑ k : Fin 12544, x0 (ix3 (0 : Fin 1) (y 2) k) * x0 (ix3 (0 : Fin 1) (y 2) k) := by
  have hy : y = ix3 (0 : Fin 1) (0 : Fin 1) (y 2) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact (congrArg (out0_2 x0) hy).trans (norms_apply x0 (y 2))

/-- The loaded block's index map against the stored norms': the pair on axis 0, the half on the block's row axis against
    the norms' last axis, and nothing moves on the other axes. -/
private theorem idx_norms : ∀ t : Fin cfg0.N,
    win0_0.index t (0 : Fin 3) = win0_2.index t (0 : Fin 3)
    ∧ win0_0.index t (1 : Fin 3) = win0_2.index t (2 : Fin 3)
    ∧ win0_0.index t (2 : Fin 3) = 0
    ∧ win0_2.index t (1 : Fin 3) = 0 :=
  (by decide +kernel : ∀ t : Fin grid0.N, _)

/-- Every block (pair, half) of the second output array is some point's. -/
private theorem onto_norms : ∀ (q0 : Fin 8) (q2 : Fin 2), ∃ t : Fin cfg0.N, win0_2.index t = ![q0.val, 0, q2.val] :=
  (by decide +kernel : ∀ (q0 : Fin 8) (q2 : Fin 2), ∃ t : Fin grid0.N, win0_2.index t = ![q0.val, 0, q2.val])

/-- What a point writes back to the second output array is its block of the squared norms of the array read. -/
private theorem flushed_norms (c : Dev nD) (t : Fin cfg0.N) :
    (dat0 (F := Ideal) V c).flushed 2 t
      = ((cfg0.win 2).blk t).view.read (Elt Ideal) (fun i : S8x1x256.Idx => sqRow (V c main_arg1) i) := by
  show (cfg0.win 2).cut (grid0.coords t) ((dat0 V c).after 2 t) = _
  rw [after0_2]
  obtain ⟨e0, e1, e2, e3⟩ := idx_norms t
  funext y
  show out0_2 (iblk0 V c 0 t) y = sqRow (V c main_arg1) (((cfg0.win 2).blk t).view.emb y)
  refine (norms_point (iblk0 V c 0 t) y).trans ?_
  unfold sqRow SoftKnn.sq
  refine Finset.sum_congr rfl fun k _ => ?_
  have hy0 : (y 0).val = 0 := by have h : (y 0).val < 1 := (y 0).isLt; omega
  have e : ((cfg0.win 0).blk t).view.emb (ix3 (0 : Fin 1) (y 2) k)
      = ix3 ((((cfg0.win 2).blk t).view.emb y) 0) ((((cfg0.win 2).blk t).view.emb y) 2) k := by
    funext a
    apply Fin.ext
    match a with
    | ⟨0, _⟩ =>
      show win0_0.index t (0 : Fin 3) * 1 + 1 * 0 = win0_2.index t (0 : Fin 3) * 1 + 1 * (y 0).val
      omega
    | ⟨1, _⟩ =>
      show win0_0.index t (1 : Fin 3) * 128 + 1 * (y 2).val = win0_2.index t (2 : Fin 3) * 128 + 1 * (y 2).val
      omega
    | ⟨2, _⟩ =>
      show win0_0.index t (2 : Fin 3) * 12544 + 1 * k.val = k.val
      omega
  have e' : (iblk0 V c 0 t (ix3 (0 : Fin 1) (y 2) k) : EReal)
      = (V c main_arg1 (ix3 ((((cfg0.win 2).blk t).view.emb y) 0) ((((cfg0.win 2).blk t).view.emb y) 2) k) : EReal) := by
    exact congrArg (V c main_arg1) e
  exact congrArg₂ (fun a b : EReal => a * b) e' e'

/-- An index of the second output array is in a point's block iff each coordinate is in the block's range on its axis. -/
private theorem mem_blk_norms (t : Fin cfg0.N) (i : S8x1x256.Idx) :
    i ∈ ((cfg0.win 2).blk t).view.set ↔ ∀ a : Fin 3, win0_2.index t a * S1x1x128.size a ≤ (i a).val
      ∧ (i a).val < win0_2.index t a * S1x1x128.size a + S1x1x128.size a := by
  show i ∈ ((View.whole main_v0_1).slice (win0_2.rect t)).set ↔ _
  rw [View.set_slice_whole, Rect.mem_set_unit]
  exact Iff.rfl

/-- Entry r of row p lies in the block of the point (p, r / 128). -/
private theorem cover_norms (i : S8x1x256.Idx) :
    ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 256 := (i 2).isLt
  obtain ⟨t, ht⟩ := onto_norms ⟨(i 0).val, hi0⟩ ⟨(i 2).val / 128, by omega⟩
  have q0 : win0_2.index t (0 : Fin 3) = (i 0).val := congrFun ht 0
  have q1 : win0_2.index t (1 : Fin 3) = 0 := congrFun ht 1
  have q2 : win0_2.index t (2 : Fin 3) = (i 2).val / 128 := congrFun ht 2
  refine ⟨t, flush0_2 t, ?_⟩
  rw [mem_blk_norms]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 128 ≤ (i 2).val ∧ (i 2).val < win0_2.index t (2 : Fin 3) * 128 + 128
    omega

/-- After the first kernel's run its second output array holds the squared norms of the rows of the array it read. -/
theorem norms_arr (c : Dev nD) :
    (dat0 (F := Ideal) V c).arrAt 2 cfg0.N = (fun i : S8x1x256.Idx => sqRow (V c main_arg1) i) :=
  (dat0 (F := Ideal) V c).arrAt_eq_of_cover 2 (fun i : S8x1x256.Idx => sqRow (V c main_arg1) i)
    (fun t _ => flushed_norms V c t) cover_norms

end Cert.KernelIdeal.Prep

end
-- ==== Proof.KnnBody.lean ====
/-
  What the second kernel stores at a grid point, read at an index of its output block.
-/
import proofs.«421647_j80590766342750_3_alg».proof.Proof.Gen.KernelIdeal.Frame
import proofs.«421647_j80590766342750_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Knn

open Cert.KernelIdeal Cert.KernelIdeal.Gen Cert.SoftKnn
open Idealize.ShloMosaic Idealize.ShloMosaic.TcCoe Idealize.ShloMosaic.ValueIdx
open Idealize.SL.Sem
open Idealize.ShloMosaic.Pipeline (Dat Cfg Window)

/-- The first block, with its unit axis dropped, at row `r` and feature `k`. -/
private theorem u_apply (x0 : Vec Ideal S1x64x12544 .f32) (r : Fin 64) (k : Fin 12544) :
    k1_pay2 (F := Ideal) x0 (ix2 r k) = x0 (ix3 (0 : Fin 1) r k) := by
  unfold k1_pay2
  refine (shapeCast_dropUnit_apply ![64, 12544] x0 shapeCasts_S1x64x12544_S64x12544 (ix2 r k)).trans ?_
  refine congrArg x0 (funext fun a => ?_)
  match a with
  | ⟨0, _⟩ => rfl
  | ⟨1, _⟩ => rfl
  | ⟨2, _⟩ => rfl

/-- The loads read their whole blocks. -/
private theorem out_eq (x0 : Vec Ideal S1x64x12544 .f32) (x1 : Vec Ideal S1x256x12544 .bf16) (x2 : Vec Ideal S1x1x256 .f32) :
    out1_3 x0 x1 x2 = View.canon [⟨r1_4, k1_pay1 (k1_pay3 x0 x1 x2)⟩, ⟨r1_3, k1_pay4 x0⟩] := by
  unfold out1_3
  rw [View.ld_unit_zero (by funext a; match a with | ⟨0, _⟩ => rfl | ⟨1, _⟩ => rfl | ⟨2, _⟩ => rfl),
    View.ld_unit_zero (by funext a; match a with | ⟨0, _⟩ => rfl | ⟨1, _⟩ => rfl | ⟨2, _⟩ => rfl),
    View.ld_unit_zero (by funext a; match a with | ⟨0, _⟩ => rfl | ⟨1, _⟩ => rfl | ⟨2, _⟩ => rfl)]

/-! ## The body's stages, named

Each stage of the body as a function of the three blocks, at the ideal values. -/

/-- The second block with its unit axis dropped: the 256 rows of `V`'s pair. -/
private def vB (x1 : Vec Ideal S1x256x12544 .bf16) : FVec Ideal S256x12544 .bf16 :=
  shapeCast S256x12544 x1 shapeCasts_S1x256x12544_S256x12544

/-- The third block with its leading unit axis dropped: the row of squared norms. -/
private def vvB (x2 : Vec Ideal S1x1x256 .f32) : FVec Ideal S1x256 .f32 :=
  shapeCast S1x256 x2 shapeCasts_S1x1x256_S1x256

/-- The squared norms of the tile's rows, as a column. -/
private def uuB (x0 : Vec Ideal S1x64x12544 .f32) : FVec Ideal S64x1 .f32 :=
  shapeCast S64x1 (multiReduction .add [1] S64 (mulf (k1_pay2 (F := Ideal) x0) (k1_pay2 (F := Ideal) x0)) 0x00000000#32
    reduces_S64x12544_S64 (.inl rfl) rfl) shapeCasts_S64_S64x1

/-- The inner products of the tile's rows with `V`'s rows. -/
private def uvB (x0 : Vec Ideal S1x64x12544 .f32) (x1 : Vec Ideal S1x256x12544 .bf16) : FVec Ideal S64x256 .f32 :=
  matmul dot_S64x12544_S256x12544_S64x256_1_1_0_0_n_n none (truncf .bf16 (k1_pay2 (F := Ideal) x0) bitsLt_bf16_f32) (vB x1)
    (constant (F := Ideal) S64x256 .f32 0x00000000#32)

/-- The scaled squared distances. -/
private def distB (x0 : Vec Ideal S1x64x12544 .f32) (x1 : Vec Ideal S1x256x12544 .bf16) (x2 : Vec Ideal S1x1x256 .f32) :
    FVec Ideal S64x256 .f32 :=
  mulf (subf (addf (broadcastTo S64x256 (uuB x0) broadcasts_S64x1_S64x256) (broadcastTo S64x256 (vvB x2) broadcasts_S1x256_S64x256))
      (mulf (broadcast S64x256 (Scalar.ofBits (F := Ideal) .f32 0x40000000#32)) (uvB x0 x1)))
    (broadcast S64x256 (Scalar.ofBits (F := Ideal) .f32 0x3DCCCCCD#32))

/-- Each row's largest distance, as a column. -/
private def topB (x0 : Vec Ideal S1x64x12544 .f32) (x1 : Vec Ideal S1x256x12544 .bf16) (x2 : Vec Ideal S1x1x256 .f32) :
    FVec Ideal S64x1 .f32 :=
  shapeCast S64x1 (multiReduction .maximumf [1] S64 (distB x0 x1 x2) 0xFF800000#32 reduces_S64x256_S64 (.inl rfl) rfl)
    shapeCasts_S64_S64x1

/-- The unnormalized weights. -/
private def wtB (x0 : Vec Ideal S1x64x12544 .f32) (x1 : Vec Ideal S1x256x12544 .bf16) (x2 : Vec Ideal S1x1x256 .f32) :
    FVec Ideal S64x256 .f32 :=
  exp (subf (distB x0 x1 x2) (broadcastTo S64x256 (topB x0 x1 x2) broadcasts_S64x1_S64x256))

/-- Each row's total weight, as a column. -/
private def totB (x0 : Vec Ideal S1x64x12544 .f32) (x1 : Vec Ideal S1x256x12544 .bf16) (x2 : Vec Ideal S1x1x256 .f32) :
    FVec Ideal S64x1 .f32 :=
  shapeCast S64x1 (multiReduction .add [1] S64 (wtB x0 x1 x2) 0x00000000#32 reduces_S64x256_S64 (.inl rfl) rfl)
    shapeCasts_S64_S64x1

/-- The softmax weights. -/
private def scoreB (x0 : Vec Ideal S1x64x12544 .f32) (x1 : Vec Ideal S1x256x12544 .bf16) (x2 : Vec Ideal S1x1x256 .f32) :
    FVec Ideal S64x256 .f32 :=
  divf (wtB x0 x1 x2) (broadcastTo S64x256 (totB x0 x1 x2) broadcasts_S64x1_S64x256)

/-- The mixtures of `V`'s rows. -/
private def blendB (x0 : Vec Ideal S1x64x12544 .f32) (x1 : Vec Ideal S1x256x12544 .bf16) (x2 : Vec Ideal S1x1x256 .f32) :
    FVec Ideal S64x12544 .f32 :=
  matmul dot_S64x256_S256x12544_S64x12544_1_0_0_1_n_n none (truncf .bf16 (scoreB x0 x1 x2) bitsLt_bf16_f32) (vB x1)
    (constant (F := Ideal) S64x12544 .f32 0x00000000#32)

/-- The body's arithmetic is the last stage. -/
private theorem pay3_eq (x0 : Vec Ideal S1x64x12544 .f32) (x1 : Vec Ideal S1x256x12544 .bf16) (x2 : Vec Ideal S1x1x256 .f32) :
    k1_pay3 (F := Ideal) x0 x1 x2 = blendB x0 x1 x2 := rfl

/-! ## Reading the layout operations at coordinates -/

/-- The second block, with its unit axis dropped, at row `j` and feature `k`. -/
private theorem vB_apply (x1 : Vec Ideal S1x256x12544 .bf16) (j : Fin 256) (k : Fin 12544) :
    vB x1 (ix2 j k) = x1 (ix3 (0 : Fin 1) j k) := by
  unfold vB
  refine (shapeCast_dropUnit_apply ![256, 12544] x1 shapeCasts_S1x256x12544_S256x12544 (ix2 j k)).trans ?_
  refine congrArg x1 (funext fun a => ?_)
  match a with
  | ⟨0, _⟩ => rfl
  | ⟨1, _⟩ => rfl
  | ⟨2, _⟩ => rfl

/-- The third block, with its leading unit axis dropped, at column `j`. -/
private theorem vvB_apply (x2 : Vec Ideal S1x1x256 .f32) (j : Fin 256) :
    vvB x2 (ix2 (0 : Fin 1) j) = x2 (ix3 (0 : Fin 1) (0 : Fin 1) j) := by
  unfold vvB
  refine (shapeCast_dropUnit_apply ![1, 256] x2 shapeCasts_S1x1x256_S1x256 (ix2 (0 : Fin 1) j)).trans ?_
  refine congrArg x2 (funext fun a => ?_)
  match a with
  | ⟨0, _⟩ => rfl
  | ⟨1, _⟩ => rfl
  | ⟨2, _⟩ => rfl

/-- A vector of 64 entries viewed as a column, at row `r`. -/
private theorem col_apply (w : FVec Ideal S64 .f32) (r : Fin 64) :
    shapeCast S64x1 w shapeCasts_S64_S64x1 (ix2 r (0 : Fin 1)) = w (ix1 r) := by
  refine shapeCast_apply w shapeCasts_S64_S64x1 (ix2 r (0 : Fin 1)) (ix1 r) ?_
  rw [Shape.rowMajor_val_one, Shape.rowMajor_val_two]
  show r.val = r.val * 1 + 0
  omega

/-- A column broadcast along the rows' 256 entries, at `(r, j)`. -/
private theorem bcol_apply (w : FVec Ideal S64x1 .f32) (r : Fin 64) (j : Fin 256) :
    broadcastTo S64x256 w broadcasts_S64x1_S64x256 (ix2 r j) = w (ix2 r (0 : Fin 1)) :=
  broadcastTo_apply w broadcasts_S64x1_S64x256 (ix2 r j) (ix2 r (0 : Fin 1)) (fun a => match a with
    | ⟨0, _⟩ => by show r.val = if (64 : Nat) = 1 then 0 else r.val; rw [if_neg (by decide)]
    | ⟨1, _⟩ => by show 0 = if (1 : Nat) = 1 then 0 else j.val; rw [if_pos rfl])

/-- A row broadcast down the 64 rows, at `(r, j)`. -/
private theorem brow_apply (w : FVec Ideal S1x256 .f32) (r : Fin 64) (j : Fin 256) :
    broadcastTo S64x256 w broadcasts_S1x256_S64x256 (ix2 r j) = w (ix2 (0 : Fin 1) j) :=
  broadcastTo_apply w broadcasts_S1x256_S64x256 (ix2 r j) (ix2 (0 : Fin 1) j) (fun a => match a with
    | ⟨0, _⟩ => by show 0 = if (1 : Nat) = 1 then 0 else r.val; rw [if_pos rfl]
    | ⟨1, _⟩ => by show j.val = if (256 : Nat) = 1 then 0 else j.val; rw [if_neg (by decide)])

/-- The index a reduction over the features inserts: row `r`, feature `k`. -/
private theorem lift_feat (r : Fin 64) (k : Fin 12544) : reduces_S64x12544_S64.lift (ix1 r) k = ix2 r k :=
  funext fun a => Fin.ext (by match a with | ⟨0, _⟩ => rfl | ⟨1, _⟩ => rfl)

/-- The index a reduction over the 256 columns inserts: row `r`, column `j`. -/
private theorem lift_col (r : Fin 64) (j : Fin 256) : reduces_S64x256_S64.lift (ix1 r) j = ix2 r j :=
  funext fun a => Fin.ext (by match a with | ⟨0, _⟩ => rfl | ⟨1, _⟩ => rfl)

/-! ## The first product's operand indices -/

private theorem lhs_uv_0 (i : S64x256.Idx) (c : dot_S64x12544_S256x12544_S64x256_1_1_0_0_n_n.contr.Idx) :
    (dot_S64x12544_S256x12544_S64x256_1_1_0_0_n_n.lhsIdx i c 0).val = (i 0).val := by
  unfold DotDims.lhsIdx
  rw [dif_neg (show ¬(0 : Fin S64x12544.rank) ∈ dot_S64x12544_S256x12544_S64x256_1_1_0_0_n_n.lhsBatch by decide), dif_pos (show (0 : Fin S64x12544.rank) ∈ dot_S64x12544_S256x12544_S64x256_1_1_0_0_n_n.lhsNonContracting by decide)]
  rfl
private theorem lhs_uv_1 (i : S64x256.Idx) (c : dot_S64x12544_S256x12544_S64x256_1_1_0_0_n_n.contr.Idx) :
    (dot_S64x12544_S256x12544_S64x256_1_1_0_0_n_n.lhsIdx i c 1).val = (c ⟨0, by decide⟩).val :=
  dot_S64x12544_S256x12544_S64x256_1_1_0_0_n_n.lhsIdx_val_of_single rfl i c
private theorem rhs_uv_0 (i : S64x256.Idx) (c : dot_S64x12544_S256x12544_S64x256_1_1_0_0_n_n.contr.Idx) :
    (dot_S64x12544_S256x12544_S64x256_1_1_0_0_n_n.rhsIdx i c 0).val = (i 1).val := by
  unfold DotDims.rhsIdx
  rw [dif_neg (show ¬(0 : Fin S256x12544.rank) ∈ dot_S64x12544_S256x12544_S64x256_1_1_0_0_n_n.rhsBatch by decide), dif_pos (show (0 : Fin S256x12544.rank) ∈ dot_S64x12544_S256x12544_S64x256_1_1_0_0_n_n.rhsNonContracting by decide)]
  rfl
private theorem rhs_uv_1 (i : S64x256.Idx) (c : dot_S64x12544_S256x12544_S64x256_1_1_0_0_n_n.contr.Idx) :
    (dot_S64x12544_S256x12544_S64x256_1_1_0_0_n_n.rhsIdx i c 1).val = (c ⟨0, by decide⟩).val :=
  dot_S64x12544_S256x12544_S64x256_1_1_0_0_n_n.rhsIdx_val_of_single rfl i c

/-! ## The stages at coordinates -/

section Stages

variable (U V : Feat) (p : Fin 8) (q : Fin 4)
  (x0 : Vec Ideal S1x64x12544 .f32) (x1 : Vec Ideal S1x256x12544 .bf16) (x2 : Vec Ideal S1x1x256 .f32)
  (h0 : ∀ (r : Fin 64) (k : Fin 12544), x0 (ix3 (0 : Fin 1) r k) = U (ix3 p (tileRow q r) k))
  (h1 : ∀ (j : Fin 256) (k : Fin 12544), x1 (ix3 (0 : Fin 1) j k) = V (ix3 p j k))
  (h2 : ∀ j : Fin 256, x2 (ix3 (0 : Fin 1) (0 : Fin 1) j) = sq V p j)

include h0 in
/-- The squared norm of the tile's row `r`. -/
private theorem uuB_apply (r : Fin 64) : uuB x0 (ix2 r (0 : Fin 1)) = sq U p (tileRow q r) := by
  unfold uuB
  refine (col_apply _ r).trans ?_
  refine (Ideal.multiReduction_add_single (mulf (k1_pay2 (F := Ideal) x0) (k1_pay2 (F := Ideal) x0)) 0x00000000#32
    reduces_S64x12544_S64 (.inl rfl) rfl (ix1 r)).trans ?_
  unfold Cert.SoftKnn.sq
  refine Finset.sum_congr rfl fun (k : Fin 12544) _ => ?_
  rw [lift_feat r k, mulf_apply, u_apply, h0]

include h0 h1 in
/-- The inner product of the tile's row `r` with `V`'s row `j`. -/
private theorem uvB_apply (r : Fin 64) (j : Fin 256) : uvB x0 x1 (ix2 r j) = cross U V p (tileRow q r) j := by
  unfold uvB
  refine (Ideal.matmul_constant_zero_apply dot_S64x12544_S256x12544_S64x256_1_1_0_0_n_n none _ _ (ix2 r j)).trans ?_
  rw [← Equiv.sum_comp (contrEquiv1 dot_S64x12544_S256x12544_S64x256_1_1_0_0_n_n 12544 rfl rfl).symm]
  unfold cross
  refine Finset.sum_congr rfl fun k _ => ?_
  have hk := contrEquiv1_symm_val dot_S64x12544_S256x12544_S64x256_1_1_0_0_n_n 12544 rfl rfl k
  have el : dot_S64x12544_S256x12544_S64x256_1_1_0_0_n_n.lhsIdx (ix2 r j) ((contrEquiv1 dot_S64x12544_S256x12544_S64x256_1_1_0_0_n_n 12544 rfl rfl).symm k) = ix2 r k := funext fun a => Fin.ext (by
    match a with
    | ⟨0, _⟩ => exact lhs_uv_0 _ _
    | ⟨1, _⟩ => exact (lhs_uv_1 _ _).trans hk)
  have er : dot_S64x12544_S256x12544_S64x256_1_1_0_0_n_n.rhsIdx (ix2 r j) ((contrEquiv1 dot_S64x12544_S256x12544_S64x256_1_1_0_0_n_n 12544 rfl rfl).symm k) = ix2 j k := funext fun a => Fin.ext (by
    match a with
    | ⟨0, _⟩ => exact rhs_uv_0 _ _
    | ⟨1, _⟩ => exact (rhs_uv_1 _ _).trans hk)
  rw [el, er, truncf_apply, u_apply, h0, vB_apply, h1]

end Stages

/-! ## The second product's operand indices -/

private theorem lhs_bl_0 (i : S64x12544.Idx) (c : dot_S64x256_S256x12544_S64x12544_1_0_0_1_n_n.contr.Idx) :
    (dot_S64x256_S256x12544_S64x12544_1_0_0_1_n_n.lhsIdx i c 0).val = (i 0).val := by
  unfold DotDims.lhsIdx
  rw [dif_neg (show ¬(0 : Fin S64x256.rank) ∈ dot_S64x256_S256x12544_S64x12544_1_0_0_1_n_n.lhsBatch by decide), dif_pos (show (0 : Fin S64x256.rank) ∈ dot_S64x256_S256x12544_S64x12544_1_0_0_1_n_n.lhsNonContracting by decide)]
  rfl
private theorem lhs_bl_1 (i : S64x12544.Idx) (c : dot_S64x256_S256x12544_S64x12544_1_0_0_1_n_n.contr.Idx) :
    (dot_S64x256_S256x12544_S64x12544_1_0_0_1_n_n.lhsIdx i c 1).val = (c ⟨0, by decide⟩).val :=
  dot_S64x256_S256x12544_S64x12544_1_0_0_1_n_n.lhsIdx_val_of_single rfl i c
private theorem rhs_bl_0 (i : S64x12544.Idx) (c : dot_S64x256_S256x12544_S64x12544_1_0_0_1_n_n.contr.Idx) :
    (dot_S64x256_S256x12544_S64x12544_1_0_0_1_n_n.rhsIdx i c 0).val = (c ⟨0, by decide⟩).val :=
  dot_S64x256_S256x12544_S64x12544_1_0_0_1_n_n.rhsIdx_val_of_single rfl i c
private theorem rhs_bl_1 (i : S64x12544.Idx) (c : dot_S64x256_S256x12544_S64x12544_1_0_0_1_n_n.contr.Idx) :
    (dot_S64x256_S256x12544_S64x12544_1_0_0_1_n_n.rhsIdx i c 1).val = (i 1).val := by
  unfold DotDims.rhsIdx
  rw [dif_neg (show ¬(1 : Fin S256x12544.rank) ∈ dot_S64x256_S256x12544_S64x12544_1_0_0_1_n_n.rhsBatch by decide), dif_pos (show (1 : Fin S256x12544.rank) ∈ dot_S64x256_S256x12544_S64x12544_1_0_0_1_n_n.rhsNonContracting by decide)]
  rfl

section Stages2

variable (U V : Feat) (p : Fin 8) (q : Fin 4)
  (x0 : Vec Ideal S1x64x12544 .f32) (x1 : Vec Ideal S1x256x12544 .bf16) (x2 : Vec Ideal S1x1x256 .f32)
  (h0 : ∀ (r : Fin 64) (k : Fin 12544), x0 (ix3 (0 : Fin 1) r k) = U (ix3 p (tileRow q r) k))
  (h1 : ∀ (j : Fin 256) (k : Fin 12544), x1 (ix3 (0 : Fin 1) j k) = V (ix3 p j k))
  (h2 : ∀ j : Fin 256, x2 (ix3 (0 : Fin 1) (0 : Fin 1) j) = sq V p j)

include h0 h1 h2 in
/-- The scaled squared distance of the tile's row `r` to `V`'s row `j`. -/
private theorem distB_apply (r : Fin 64) (j : Fin 256) : distB x0 x1 x2 (ix2 r j) = dist U V p (tileRow q r) j := by
  unfold distB
  rw [mulf_apply, subf_apply, addf_apply, mulf_apply, bcol_apply, brow_apply, broadcast_apply, broadcast_apply,
    uuB_apply U p q x0 h0 r, vvB_apply, h2, uvB_apply U V p q x0 x1 h0 h1 r j]
  rfl

include h0 h1 h2 in
/-- The largest distance of the tile's row `r`. -/
private theorem topB_apply (r : Fin 64) : topB x0 x1 x2 (ix2 r (0 : Fin 1)) = top U V p (tileRow q r) := by
  unfold topB
  refine (col_apply _ r).trans ?_
  refine (Ideal.multiReduction_maximumf_single (distB x0 x1 x2) 0xFF800000#32 reduces_S64x256_S64 (.inl rfl) rfl (ix1 r)).trans ?_
  have e : (distB x0 x1 x2 ∘ reduces_S64x256_S64.lift (ix1 r)) = fun j : Fin 256 => dist U V p (tileRow q r) j :=
    funext fun j => by rw [Function.comp_apply, lift_col r j, distB_apply U V p q x0 x1 x2 h0 h1 h2 r j]
  exact congrArg (fun g : Fin 256 → EReal => (Finset.univ : Finset (Fin 256)).fold max negInf g) e

include h0 h1 h2 in
/-- The unnormalized weight of `V`'s row `j` for the tile's row `r`. -/
private theorem wtB_apply (r : Fin 64) (j : Fin 256) : wtB x0 x1 x2 (ix2 r j) = wt U V p (tileRow q r) j := by
  unfold wtB wt
  show Ideal.exp (distB x0 x1 x2 (ix2 r j) - broadcastTo S64x256 (topB x0 x1 x2) broadcasts_S64x1_S64x256 (ix2 r j)) = _
  rw [bcol_apply, distB_apply U V p q x0 x1 x2 h0 h1 h2 r j, topB_apply U V p q x0 x1 x2 h0 h1 h2 r]

include h0 h1 h2 in
/-- The total weight of the tile's row `r`. -/
private theorem totB_apply (r : Fin 64) : totB x0 x1 x2 (ix2 r (0 : Fin 1)) = tot U V p (tileRow q r) := by
  unfold totB
  refine (col_apply _ r).trans ?_
  refine (Ideal.multiReduction_add_single (wtB x0 x1 x2) 0x00000000#32 reduces_S64x256_S64 (.inl rfl) rfl (ix1 r)).trans ?_
  unfold tot
  refine Finset.sum_congr rfl fun (j : Fin 256) _ => ?_
  rw [lift_col r j, wtB_apply U V p q x0 x1 x2 h0 h1 h2 r j]

include h0 h1 h2 in
/-- The softmax weight of `V`'s row `j` for the tile's row `r`. -/
private theorem scoreB_apply (r : Fin 64) (j : Fin 256) : scoreB x0 x1 x2 (ix2 r j) = score U V p (tileRow q r) j := by
  unfold scoreB score
  show Ideal.div (wtB x0 x1 x2 (ix2 r j)) (broadcastTo S64x256 (totB x0 x1 x2) broadcasts_S64x1_S64x256 (ix2 r j)) = _
  rw [bcol_apply, wtB_apply U V p q x0 x1 x2 h0 h1 h2 r j, totB_apply U V p q x0 x1 x2 h0 h1 h2 r]

include h0 h1 h2 in
/-- The mixture of `V`'s rows for the tile's row `r`, at feature `f`. -/
private theorem blendB_apply (r : Fin 64) (f : Fin 12544) : blendB x0 x1 x2 (ix2 r f) = blend U V p (tileRow q r) f := by
  unfold blendB
  refine (Ideal.matmul_constant_zero_apply dot_S64x256_S256x12544_S64x12544_1_0_0_1_n_n none _ _ (ix2 r f)).trans ?_
  rw [← Equiv.sum_comp (contrEquiv1 dot_S64x256_S256x12544_S64x12544_1_0_0_1_n_n 256 rfl rfl).symm]
  unfold blend
  refine Finset.sum_congr rfl fun j _ => ?_
  have hj := contrEquiv1_symm_val dot_S64x256_S256x12544_S64x12544_1_0_0_1_n_n 256 rfl rfl j
  have el : dot_S64x256_S256x12544_S64x12544_1_0_0_1_n_n.lhsIdx (ix2 r f) ((contrEquiv1 dot_S64x256_S256x12544_S64x12544_1_0_0_1_n_n 256 rfl rfl).symm j) = ix2 r j := funext fun a => Fin.ext (by
    match a with
    | ⟨0, _⟩ => exact lhs_bl_0 _ _
    | ⟨1, _⟩ => exact (lhs_bl_1 _ _).trans hj)
  have er : dot_S64x256_S256x12544_S64x12544_1_0_0_1_n_n.rhsIdx (ix2 r f) ((contrEquiv1 dot_S64x256_S256x12544_S64x12544_1_0_0_1_n_n 256 rfl rfl).symm j) = ix2 j f := funext fun a => Fin.ext (by
    match a with
    | ⟨0, _⟩ => exact (rhs_bl_0 _ _).trans hj
    | ⟨1, _⟩ => exact rhs_bl_1 _ _)
  rw [el, er, truncf_apply, scoreB_apply U V p q x0 x1 x2 h0 h1 h2 r j, vB_apply, h1]

end Stages2

/-! ## The two stores -/

/-- A tile of 64 rows stored as a block with two leading unit axes, at row `r` and feature `f`. -/
private theorem tile_apply (w : FVec Ideal S64x12544 .f32) (r : Fin 64) (f : Fin 12544) :
    shapeCast S1x1x64x12544 w shapeCasts_S64x12544_S1x1x64x12544 (ix4 (0 : Fin 1) (0 : Fin 1) r f) = w (ix2 r f) := by
  refine shapeCast_apply w shapeCasts_S64x12544_S1x1x64x12544 (ix4 (0 : Fin 1) (0 : Fin 1) r f) (ix2 r f) ?_
  rw [Shape.rowMajor_val_two, Shape.rowMajor_val_four]
  show r.val * 12544 + f.val = ((0 * 1 + 0) * 64 + r.val) * 12544 + f.val
  omega

/-- The second store's rectangle places its block on plane 1. -/
private theorem emb_plane1 (r : Fin 64) (f : Fin 12544) :
    r1_4.emb (ix4 (0 : Fin 1) (0 : Fin 1) r f) = ix4 (1 : Fin 2) (0 : Fin 1) r f :=
  funext fun a => Fin.ext (by
    match a with
    | ⟨0, _⟩ => rfl
    | ⟨1, _⟩ => rfl
    | ⟨2, _⟩ => show 0 + 1 * r.val = r.val; omega
    | ⟨3, _⟩ => show 0 + 1 * f.val = f.val; omega)

/-- The first store's rectangle places its block on plane 0. -/
private theorem emb_plane0 (r : Fin 64) (f : Fin 12544) :
    r1_3.emb (ix4 (0 : Fin 1) (0 : Fin 1) r f) = ix4 (0 : Fin 2) (0 : Fin 1) r f :=
  funext fun a => Fin.ext (by
    match a with
    | ⟨0, _⟩ => rfl
    | ⟨1, _⟩ => rfl
    | ⟨2, _⟩ => show 0 + 1 * r.val = r.val; omega
    | ⟨3, _⟩ => show 0 + 1 * f.val = f.val; omega)

/-- Plane 0 is outside the second store's rectangle. -/
private theorem plane0_not_mem (r : Fin 64) (f : Fin 12544) : ix4 (0 : Fin 2) (0 : Fin 1) r f ∉ r1_4.set := fun h => by
  have h1 : (1 : Nat) ≤ 0 := (Rect.mem_set_unit.mp h 0).1
  omega

/-- On plane 1 the block holds what the second, last, store wrote. -/
private theorem canon_plane1 (w1 w0 : Vec Ideal S1x1x64x12544 .f32) (r : Fin 64) (f : Fin 12544) :
    View.canon [(⟨r1_4, w1⟩ : View.Piece (Elt Ideal) S2x1x64x12544 .f32), ⟨r1_3, w0⟩] (ix4 (1 : Fin 2) (0 : Fin 1) r f)
      = w1 (ix4 (0 : Fin 1) (0 : Fin 1) r f) :=
  (congrArg (View.canon [(⟨r1_4, w1⟩ : View.Piece (Elt Ideal) S2x1x64x12544 .f32), ⟨r1_3, w0⟩]) (emb_plane1 r f)).symm.trans
    (View.canon_cons_emb r1_4 w1 [⟨r1_3, w0⟩] (ix4 (0 : Fin 1) (0 : Fin 1) r f))

/-- On plane 0, which the second store leaves alone, it holds what the first wrote. -/
private theorem canon_plane0 (w1 w0 : Vec Ideal S1x1x64x12544 .f32) (r : Fin 64) (f : Fin 12544) :
    View.canon [(⟨r1_4, w1⟩ : View.Piece (Elt Ideal) S2x1x64x12544 .f32), ⟨r1_3, w0⟩] (ix4 (0 : Fin 2) (0 : Fin 1) r f)
      = w0 (ix4 (0 : Fin 1) (0 : Fin 1) r f) :=
  (View.canon_cons_of_not_mem (⟨r1_4, w1⟩ : View.Piece (Elt Ideal) S2x1x64x12544 .f32) [⟨r1_3, w0⟩] (plane0_not_mem r f)).trans
    ((congrArg (View.canon [(⟨r1_3, w0⟩ : View.Piece (Elt Ideal) S2x1x64x12544 .f32)]) (emb_plane0 r f)).symm.trans
      (View.canon_cons_emb r1_3 w0 [] (ix4 (0 : Fin 1) (0 : Fin 1) r f)))

/-- At the point of pair `p` and tile `q`, whose three input blocks are rows `64 q ‥ 64 q + 63` of `U`'s pair `p` (`h0`),
    all of `V`'s pair `p` (`h1`) and the squared norms of `V`'s rows of pair `p` (`h2`), the output block holds, on plane 0,
    the rows of `U` and, on plane 1, their softmax mixtures of `V`'s rows: the block of `planes U V` at (·, p, 64 q + ·, ·). -/
theorem out_apply (U V : Feat) (p : Fin 8) (q : Fin 4)
    (x0 : Vec Ideal S1x64x12544 .f32) (x1 : Vec Ideal S1x256x12544 .bf16) (x2 : Vec Ideal S1x1x256 .f32)
    (h0 : ∀ (r : Fin 64) (k : Fin 12544), x0 (ix3 (0 : Fin 1) r k) = U (ix3 p (tileRow q r) k))
    (h1 : ∀ (j : Fin 256) (k : Fin 12544), x1 (ix3 (0 : Fin 1) j k) = V (ix3 p j k))
    (h2 : ∀ j : Fin 256, x2 (ix3 (0 : Fin 1) (0 : Fin 1) j) = sq V p j)
    (a : Fin 2) (r : Fin 64) (f : Fin 12544) :
    out1_3 x0 x1 x2 (ix4 a (0 : Fin 1) r f) = planes U V (ix4 a p (tileRow q r) f) := by
  rw [out_eq, pay3_eq]
  match a with
  | ⟨0, _⟩ =>
    -- plane 0: the first store wrote the tile of `U` there
    refine (canon_plane0 (k1_pay1 (blendB x0 x1 x2)) (k1_pay4 x0) r f).trans ?_
    unfold k1_pay4
    rw [tile_apply, u_apply, h0]
    show _ = if (0 : Nat) = 0 then U (ix3 p (tileRow q r) f) else _
    rw [if_pos rfl]
  | ⟨1, _⟩ =>
    -- plane 1: the second store wrote the mixtures there
    refine (canon_plane1 (k1_pay1 (blendB x0 x1 x2)) (k1_pay4 x0) r f).trans ?_
    unfold k1_pay1
    rw [tile_apply, blendB_apply U V p q x0 x1 x2 h0 h1 h2 r f]
    show _ = if (1 : Nat) = 0 then _ else blend U V p (tileRow q r) f
    rw [if_neg (by decide)]

end Cert.KernelIdeal.Knn

end
-- ==== Proof.KnnValue.lean ====
/-
  The second kernel's output array after its run: the two planes of `Spec.lean`.

  The grid has a point per pair `p` and tile `q` of 64 rows. At that point the output block is planes × pair `p` ×
  rows `64 q ‥ 64 q + 63` × every feature; the first input block is the same rows of `U`'s pair `p`, the second all of the
  first kernel's copy of pair `p`, the third that pair's row of squared norms. The blocks of the 32 points tile the array.
-/
import proofs.«421647_j80590766342750_3_alg».proof.Proof.KnnBody

set_option maxRecDepth 16384

noncomputable section

namespace Cert.KernelIdeal.Knn

open Cert.KernelIdeal Cert.KernelIdeal.Gen Cert.SoftKnn
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps, decided over the grid: the output block's pair and tile are the first input's, the other two
    inputs move with the pair only, and every other block index is zero. -/
theorem idx_facts : ∀ t : Fin cfg1.N,
    win1_0.index t (0 : Fin 3) = win1_3.index t (1 : Fin 4) ∧ win1_0.index t (1 : Fin 3) = win1_3.index t (2 : Fin 4)
    ∧ win1_0.index t (2 : Fin 3) = 0
    ∧ win1_1.index t (0 : Fin 3) = win1_3.index t (1 : Fin 4) ∧ win1_1.index t (1 : Fin 3) = 0 ∧ win1_1.index t (2 : Fin 3) = 0
    ∧ win1_2.index t (0 : Fin 3) = win1_3.index t (1 : Fin 4) ∧ win1_2.index t (1 : Fin 3) = 0 ∧ win1_2.index t (2 : Fin 3) = 0
    ∧ win1_3.index t (0 : Fin 4) = 0 ∧ win1_3.index t (1 : Fin 4) < 8 ∧ win1_3.index t (2 : Fin 4) < 4
    ∧ win1_3.index t (3 : Fin 4) = 0 :=
  (by decide +kernel : ∀ t : Fin grid1.N, _)

/-- Every pair and tile is some point's. -/
theorem idx_onto : ∀ (p : Fin 8) (q : Fin 4), ∃ t : Fin cfg1.N, win1_3.index t = ![0, p.val, q.val, 0] :=
  (by decide +kernel : ∀ (p : Fin 8) (q : Fin 4), ∃ t : Fin grid1.N, win1_3.index t = ![0, p.val, q.val, 0])

/-- What point `t` writes back is its block of the two planes. -/
theorem flushed_eq (c : Dev nD)
    (hv0 : ∀ i : S8x256x12544.Idx, V c main_v0_0 i = V c main_arg1 i)
    (hv1 : ∀ i : S8x1x256.Idx, V c main_v0_1 i = sqRow (V c main_arg1) i) (t : Fin cfg1.N) :
    (dat1 (F := Ideal) V c).flushed 3 t
      = ((cfg1.win 3).blk t).view.read (Elt Ideal) (fun i : S2x8x256x12544.Idx => planes (V c main_arg0) (V c main_arg1) i) := by
  show (cfg1.win 3).cut (grid1.coords t) ((dat1 V c).after 3 t) = _
  rw [after1_3]
  obtain ⟨e00, e01, e02, e10, e11, e12, e20, e21, e22, e30, hp, hq, e33⟩ := idx_facts t
  funext y
  obtain ⟨a, z, r, f, rfl⟩ : ∃ (a : Fin 2) (z : Fin 1) (r : Fin 64) (f : Fin 12544), y = ix4 a z r f :=
    ⟨y 0, y 1, y 2, y 3, eq_ix4 y⟩
  obtain rfl : z = 0 := Subsingleton.elim _ _
  show out1_3 (iblk1 V c 0 t) (iblk1 V c 1 t) (iblk1 V c 2 t) (ix4 a (0 : Fin 1) r f)
    = planes (V c main_arg0) (V c main_arg1) (((cfg1.win 3).blk t).view.emb (ix4 a (0 : Fin 1) r f))
  refine (out_apply (V c main_arg0) (V c main_arg1) ⟨win1_3.index t (1 : Fin 4), hp⟩ ⟨win1_3.index t (2 : Fin 4), hq⟩
    (iblk1 V c 0 t) (iblk1 V c 1 t) (iblk1 V c 2 t) ?_ ?_ ?_ a r f).trans ?_
  · -- the first input block is rows 64 q ‥ 64 q + 63 of `U`'s pair p
    intro r k
    show V c main_arg0 (((cfg1.win 0).blk t).view.emb (ix3 (0 : Fin 1) r k)) = V c main_arg0 _
    refine congrArg (V c main_arg0) (funext fun b => Fin.ext ?_)
    match b with
    | ⟨0, _⟩ => show win1_0.index t (0 : Fin 3) * 1 + 1 * 0 = win1_3.index t (1 : Fin 4); omega
    | ⟨1, _⟩ => show win1_0.index t (1 : Fin 3) * 64 + 1 * r.val = win1_3.index t (2 : Fin 4) * 64 + r.val; omega
    | ⟨2, _⟩ => show win1_0.index t (2 : Fin 3) * 12544 + 1 * k.val = k.val; omega
  · -- the second is the whole of pair p of the first kernel's copy, which is `V`'s pair p
    intro j k
    show V c main_v0_0 (((cfg1.win 1).blk t).view.emb (ix3 (0 : Fin 1) j k)) = V c main_arg1 _
    rw [hv0]
    refine congrArg (V c main_arg1) (funext fun b => Fin.ext ?_)
    match b with
    | ⟨0, _⟩ => show win1_1.index t (0 : Fin 3) * 1 + 1 * 0 = win1_3.index t (1 : Fin 4); omega
    | ⟨1, _⟩ => show win1_1.index t (1 : Fin 3) * 256 + 1 * j.val = j.val; omega
    | ⟨2, _⟩ => show win1_1.index t (2 : Fin 3) * 12544 + 1 * k.val = k.val; omega
  · -- the third is pair p's row of squared norms
    intro j
    show V c main_v0_1 (((cfg1.win 2).blk t).view.emb (ix3 (0 : Fin 1) (0 : Fin 1) j)) = _
    rw [hv1]
    unfold sqRow
    refine congrArg₂ (sq (V c main_arg1)) (Fin.ext ?_) (Fin.ext ?_)
    · show win1_2.index t (0 : Fin 3) * 1 + 1 * 0 = win1_3.index t (1 : Fin 4); omega
    · show win1_2.index t (2 : Fin 3) * 256 + 1 * j.val = j.val; omega
  · -- and the output block's index (a, 0, r, f) sits at (a, p, 64 q + r, f) of the array
    refine congrArg (planes (V c main_arg0) (V c main_arg1)) (funext fun b => Fin.ext ?_)
    match b with
    | ⟨0, _⟩ => show a.val = win1_3.index t (0 : Fin 4) * 2 + 1 * a.val; omega
    | ⟨1, _⟩ => show win1_3.index t (1 : Fin 4) = win1_3.index t (1 : Fin 4) * 1 + 1 * 0; omega
    | ⟨2, _⟩ => show win1_3.index t (2 : Fin 4) * 64 + r.val = win1_3.index t (2 : Fin 4) * 64 + 1 * r.val; omega
    | ⟨3, _⟩ => show f.val = win1_3.index t (3 : Fin 4) * 12544 + 1 * f.val; omega

/-- An index of the array is in point `t`'s block iff each coordinate is in the block's range on its axis. -/
theorem mem_blk (t : Fin cfg1.N) (i : S2x8x256x12544.Idx) :
    i ∈ ((cfg1.win 3).blk t).view.set ↔ ∀ a : Fin 4, win1_3.index t a * S2x1x64x12544.size a ≤ (i a).val
      ∧ (i a).val < win1_3.index t a * S2x1x64x12544.size a + S2x1x64x12544.size a := by
  show i ∈ ((View.whole main_v1).slice (win1_3.rect t)).set ↔ _
  rw [View.set_slice_whole, Rect.mem_set_unit]
  exact Iff.rfl

/-- Every index of the array is in the block of the point of its pair and of its row's tile. -/
theorem cover (i : S2x8x256x12544.Idx) :
    ∃ t : Fin cfg1.N, (cfg1.win 3).flush t = true ∧ i ∈ ((cfg1.win 3).blk t).view.set := by
  have h0 : (i 0).val < 2 := (i 0).isLt
  have h1 : (i 1).val < 8 := (i 1).isLt
  have h2 : (i 2).val < 256 := (i 2).isLt
  have h3 : (i 3).val < 12544 := (i 3).isLt
  obtain ⟨t, ht⟩ := idx_onto ⟨(i 1).val, h1⟩ ⟨(i 2).val / 64, by omega⟩
  have q0 : win1_3.index t (0 : Fin 4) = 0 := congrFun ht 0
  have q1 : win1_3.index t (1 : Fin 4) = (i 1).val := congrFun ht 1
  have q2 : win1_3.index t (2 : Fin 4) = (i 2).val / 64 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 2 ≤ (i 0).val ∧ (i 0).val < win1_3.index t (0 : Fin 4) * 2 + 2; omega
  | ⟨1, _⟩ => show win1_3.index t (1 : Fin 4) * 1 ≤ (i 1).val ∧ (i 1).val < win1_3.index t (1 : Fin 4) * 1 + 1; omega
  | ⟨2, _⟩ => show win1_3.index t (2 : Fin 4) * 64 ≤ (i 2).val ∧ (i 2).val < win1_3.index t (2 : Fin 4) * 64 + 64; omega
  | ⟨3, _⟩ => show win1_3.index t (3 : Fin 4) * 12544 ≤ (i 3).val ∧ (i 3).val < win1_3.index t (3 : Fin 4) * 12544 + 12544; omega

/-- After the second kernel's run, entered with the first kernel's two outputs in place (`hv0`, `hv1`), its output array
    holds the two planes. -/
theorem planes_arr (c : Dev nD)
    (hv0 : ∀ i : S8x256x12544.Idx, V c main_v0_0 i = V c main_arg1 i)
    (hv1 : ∀ i : S8x1x256.Idx, V c main_v0_1 i = sqRow (V c main_arg1) i) :
    (dat1 (F := Ideal) V c).arrAt 3 cfg1.N = (fun i : S2x8x256x12544.Idx => planes (V c main_arg0) (V c main_arg1) i) :=
  (dat1 (F := Ideal) V c).arrAt_eq_of_cover 3 _ (fun t _ => flushed_eq V c hv0 hv1 t) cover

end Cert.KernelIdeal.Knn

end
-- ==== Proof.KernelValue.lean ====
/-
  The whole program's result array at the return, as a function of the two argument arrays.

  The first kernel leaves the copy of `V` and the squared norms of its rows; the second kernel, entered with those in
  place, leaves the two planes; the closing reshape flattens planes × pairs × rows into 4096 rows.
-/
import proofs.«421647_j80590766342750_3_alg».proof.Proof.Prep
import proofs.«421647_j80590766342750_3_alg».proof.Proof.KnnValue
import Idealize.ShloMosaic.Lib.StableHlo.Run

set_option maxRecDepth 16384

noncomputable section

namespace Cert.KernelIdeal.Whole

open Cert.KernelIdeal Cert.KernelIdeal.Gen Cert.SoftKnn
open Idealize.ShloMosaic Idealize.ShloMosaic.TcCoe Idealize.ShloMosaic.ValueIdx
open Idealize.SL.Sem
open Idealize.ShloMosaic.Pipeline (Dat Cfg Window)

open Idealize.ShloMosaic.StableHlo

variable (m : (ℓ : Loc nD τ sig) → Buf (Elt Ideal) ℓ) (ρ : Dev nD → PrngReg)

/-- The second kernel is entered with `U` as launched: the first kernel does not touch it. -/
theorem entry_u (c : Dev nD) : V1 m ρ c main_arg0 = m ((c : Thread nD τ).loc main_arg0) :=
  W1_of_ne m ρ c main_arg0 (by decide)

/-- … and with `V` as launched: the first kernel only reads it. -/
theorem entry_v (c : Dev nD) : V1 m ρ c main_arg1 = m ((c : Thread nD τ).loc main_arg1) :=
  (W1_arr m ρ c 0).trans (((dat0 (V0 m ρ) c).arrAt_in 0 rfl _).trans (A_eq0 (V0 m ρ) c 0))

/-- … with the first kernel's copy holding `V`, -/
theorem entry_copy (c : Dev nD) (i : S8x256x12544.Idx) : V1 m ρ c main_v0_0 i = V1 m ρ c main_arg1 i := by
  have e1 : V1 m ρ c main_v0_0 = (dat0 (V0 m ρ) c).arrAt 1 cfg0.N := W1_arr m ρ c 1
  rw [e1, Prep.copy_arr (V0 m ρ) c, entry_v m ρ c]

/-- … and its second output holding the squared norms of `V`'s rows. -/
theorem entry_norms (c : Dev nD) (i : S8x1x256.Idx) : V1 m ρ c main_v0_1 i = sqRow (V1 m ρ c main_arg1) i := by
  have e1 : V1 m ρ c main_v0_1 = (dat0 (V0 m ρ) c).arrAt 2 cfg0.N := W1_arr m ρ c 2
  rw [e1, Prep.norms_arr (V0 m ρ) c, entry_v m ρ c]

/-- At the second kernel's exit its output array holds the two planes of the launch arguments. -/
theorem planes_at_exit (c : Dev nD) :
    W2 m ρ c (Proc.devRef .tc main_v1)
      = (fun i : S2x8x256x12544.Idx => planes (m ((c : Thread nD τ).loc main_arg0)) (m ((c : Thread nD τ).loc main_arg1)) i) := by
  have e1 : W2 m ρ c (Proc.devRef .tc main_v1) = (dat1 (V1 m ρ) c).arrAt 3 cfg1.N := W2_arr m ρ c 3
  rw [e1, Knn.planes_arr (V1 m ρ) c (entry_copy m ρ c) (entry_norms m ρ c), entry_u m ρ c, entry_v m ρ c]

/-- Flattening planes × pairs × rows: row `r` of the 4096 is plane `r / 2048`, pair `r / 256 mod 8`, row `r mod 256`. -/
theorem flatten_planes (U V : Feat) (h : S2x8x256x12544.ShapeCasts S4096x12544) (i : S4096x12544.Idx) :
    shapeCast S4096x12544 (fun j : S2x8x256x12544.Idx => planes U V j) h i = result U V i := by
  have h0 : (i 0).val < 4096 := (i 0).isLt
  have h1 : (i 1).val < 12544 := (i 1).isLt
  refine (shapeCast_apply _ h i (ix4 (⟨(i 0).val / 2048, by omega⟩ : Fin 2) (⟨(i 0).val / 256 % 8, by omega⟩ : Fin 8)
    (⟨(i 0).val % 256, by omega⟩ : Fin 256) (i 1)) ?_).trans ?_
  · rw [Shape.rowMajor_val_four, Shape.rowMajor_val_two]
    show (((i 0).val / 2048 * 8 + (i 0).val / 256 % 8) * 256 + (i 0).val % 256) * 12544 + (i 1).val = (i 0).val * 12544 + (i 1).val
    omega
  · unfold planes result
    by_cases hlt : (i 0).val < 2048
    · rw [dif_pos hlt, if_pos (show (i 0).val / 2048 = 0 by omega)]
      refine congrArg U (funext fun b => Fin.ext ?_)
      match b with
      | ⟨0, _⟩ => show (i 0).val / 256 % 8 = (i 0).val / 256; omega
      | ⟨1, _⟩ => rfl
      | ⟨2, _⟩ => rfl
    · rw [dif_neg hlt, if_neg (show ¬ (i 0).val / 2048 = 0 by omega)]
      refine congrArg₂ (fun p u => blend U V p u (i 1)) (Fin.ext ?_) (Fin.ext ?_)
      · show (i 0).val / 256 % 8 = ((i 0).val - 2048) / 256; omega
      · show (i 0).val % 256 = ((i 0).val - 2048) % 256; omega

/-- At the return the result array holds `result` of the launch arguments. -/
theorem result_at_return (c : Dev nD) :
    W3 m ρ c (Proc.devRef .tc main_v2)
      = (fun i : S4096x12544.Idx => result (m ((c : Thread nD τ).loc main_arg0)) (m ((c : Thread nD τ).loc main_arg1)) i) := by
  have e : W3 m ρ c (Proc.devRef .tc main_v2)
      = shapeCast S4096x12544 (W2 m ρ c (Proc.devRef .tc main_v1)) shapeCasts_S2x8x256x12544_S4096x12544 := by
    show StableHlo.after hostOps2 (W2 m ρ c) (Proc.devRef .tc main_v2) = _
    after_results
    rfl
  rw [e, planes_at_exit m ρ c]
  funext i
  exact flatten_planes _ _ _ i

end Cert.KernelIdeal.Whole

end
-- ==== Proof.RefValue.lean ====
/-
  The reference's result, read one operation at a time, is the function of `Spec.lean`.
-/
import proofs.«421647_j80590766342750_3_alg».proof.Proof.RefRead
import proofs.«421647_j80590766342750_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.SoftKnn
open Idealize.ShloMosaic Idealize.ShloMosaic.TcCoe Idealize.ShloMosaic.ValueIdx

/-- The two feature arrays' type. -/
private abbrev Arr : Type := (⟨S8x256x12544, .f32⟩ : BufTy).Contents (Elt Ideal)

/-- The squared norms of `U`'s rows: the sum from zero of the squares along the feature axis. -/
private theorem v1_at (U : Arr) (p : Fin 8) (u : Fin 256) : val_main_v1 (F := Ideal) U (ix2 p u) = sq U p u := by
  rw [val_main_v1_apply, val_main_cst_apply]
  show Ideal.ofBits .f32 0x00000000#32 + _ = _
  rw [Ideal.ofBits_zero_f32, zero_add]
  unfold Cert.SoftKnn.sq
  refine Finset.sum_congr rfl fun k _ => ?_
  rw [val_main_v0_apply]
  have e : idx_main_v1 (ix2 p u) k = ix3 p u k :=
    funext fun a => Fin.ext (by match a with | ⟨0, _⟩ => rfl | ⟨1, _⟩ => rfl | ⟨2, _⟩ => rfl)
  rw [e]; rfl

/-- The squared norms of `V`'s rows. -/
private theorem v3_at (V : Arr) (p : Fin 8) (j : Fin 256) : val_main_v3 (F := Ideal) V (ix2 p j) = sq V p j := by
  rw [val_main_v3_apply, val_main_cst_0_apply]
  show Ideal.ofBits .f32 0x00000000#32 + _ = _
  rw [Ideal.ofBits_zero_f32, zero_add]
  unfold Cert.SoftKnn.sq
  refine Finset.sum_congr rfl fun k _ => ?_
  rw [val_main_v2_apply]
  have e : idx_main_v3 (ix2 p j) k = ix3 p j k :=
    funext fun a => Fin.ext (by match a with | ⟨0, _⟩ => rfl | ⟨1, _⟩ => rfl | ⟨2, _⟩ => rfl)
  rw [e]; rfl

/-- The rows' inner products: the contraction along the feature axis, pair by pair. -/
private theorem v4_at (U V : Arr) (p : Fin 8) (u j : Fin 256) :
    val_main_v4 (F := Ideal) U V (ix3 p u j) = cross U V p u j := by
  rw [val_main_v4_apply]
  unfold cross
  refine Finset.sum_congr rfl fun k _ => ?_
  have el : lidx_main_v4 (ix3 p u j) k = ix3 p u k :=
    funext fun a => Fin.ext (by match a with | ⟨0, _⟩ => rfl | ⟨1, _⟩ => rfl | ⟨2, _⟩ => rfl)
  have er : ridx_main_v4 (ix3 p u j) k = ix3 p j k :=
    funext fun a => Fin.ext (by match a with | ⟨0, _⟩ => rfl | ⟨1, _⟩ => rfl | ⟨2, _⟩ => rfl)
  rw [el, er]

/-- `U`'s squared norms spread along the `V`-row axis. -/
private theorem v7_at (U : Arr) (p : Fin 8) (u j : Fin 256) :
    val_main_v7 (F := Ideal) U (ix3 p u j) = sq U p u := by
  rw [val_main_v7_apply, val_main_v5_apply]
  have e : idx_main_v5 (idx_main_v7 (ix3 p u j)) = ix2 p u :=
    funext fun a => Fin.ext (by match a with | ⟨0, _⟩ => rfl | ⟨1, _⟩ => rfl)
  rw [e, v1_at]

/-- `V`'s squared norms spread along the `U`-row axis. -/
private theorem v8_at (V : Arr) (p : Fin 8) (u j : Fin 256) :
    val_main_v8 (F := Ideal) V (ix3 p u j) = sq V p j := by
  rw [val_main_v8_apply, val_main_v6_apply]
  have e : idx_main_v6 (idx_main_v8 (ix3 p u j)) = ix2 p j :=
    funext fun a => Fin.ext (by match a with | ⟨0, _⟩ => rfl | ⟨1, _⟩ => rfl)
  rw [e, v3_at]

/-- The scaled squared distances. -/
private theorem v14_at (U V : Arr) (p : Fin 8) (u j : Fin 256) :
    val_main_v14 (F := Ideal) U V (ix3 p u j) = dist U V p u j := by
  rw [val_main_v14_apply, val_main_v12_apply, val_main_v9_apply, val_main_v11_apply,
    val_main_v13_apply, val_main_v10_apply, val_main_cst_1_apply, val_main_cst_2_apply, v7_at, v8_at, v4_at]
  rfl

/-- The row's largest distance: the fold of `max` from −∞ along the `V`-row axis. -/
private theorem v15_at (U V : Arr) (p : Fin 8) (u : Fin 256) :
    val_main_v15 (F := Ideal) U V (ix2 p u) = top U V p u := by
  unfold val_main_v15
  have hR : S8x256x256.Reduces [2] S8x256 := by decide
  refine (Host.reduce_eq_fold_single (FloatOps.maximumf (F := Ideal) (φ := .f32)) (val_main_v14 (F := Ideal) U V)
    (val_main_cst_3 (F := Ideal)) reducesTo_S8x256x256_S8x256_d2 hR h_S_ (ix2 p u)).trans ?_
  rw [val_main_cst_3_apply]
  unfold Cert.SoftKnn.top
  have ef : (val_main_v14 (F := Ideal) U V ∘ hR.lift (ix2 p u)) = fun j : Fin 256 => dist U V p u j := by
    refine funext fun (k : Fin 256) => ?_
    show val_main_v14 (F := Ideal) U V (hR.lift (ix2 p u) k) = _
    have e : hR.lift (ix2 p u) k = ix3 p u k :=
      funext fun a => Fin.ext (by match a with | ⟨0, _⟩ => rfl | ⟨1, _⟩ => rfl | ⟨2, _⟩ => rfl)
    rw [e, v14_at]
  rw [ef]
  rfl

/-- The maximum with −∞ changes nothing: the fold already starts there. -/
private theorem v17_at (U V : Arr) (p : Fin 8) (u : Fin 256) :
    val_main_v17 (F := Ideal) U V (ix2 p u) = top U V p u := by
  rw [val_main_v17_apply, val_main_v16_apply, val_main_cst_4_apply, v15_at]
  show max negInf (top U V p u) = top U V p u
  exact max_eq_right ((Finset.le_fold_max _).2 (Or.inl le_rfl))

/-- The largest distance spread along the `V`-row axis. -/
private theorem v19_at (U V : Arr) (p : Fin 8) (u j : Fin 256) :
    val_main_v19 (F := Ideal) U V (ix3 p u j) = top U V p u := by
  rw [val_main_v19_apply, val_main_v18_apply]
  have e : idx_main_v18 (idx_main_v19 (ix3 p u j)) = ix2 p u :=
    funext fun a => Fin.ext (by match a with | ⟨0, _⟩ => rfl | ⟨1, _⟩ => rfl)
  rw [e, v17_at]

/-- The unnormalized softmax weights. -/
private theorem v21_at (U V : Arr) (p : Fin 8) (u j : Fin 256) :
    val_main_v21 (F := Ideal) U V (ix3 p u j) = wt U V p u j := by
  rw [val_main_v21_apply, val_main_v20_apply, v14_at, v19_at]
  rfl

/-- The rows' total weights. -/
private theorem v22_at (U V : Arr) (p : Fin 8) (u : Fin 256) :
    val_main_v22 (F := Ideal) U V (ix2 p u) = tot U V p u := by
  rw [val_main_v22_apply, val_main_cst_5_apply]
  show Ideal.ofBits .f32 0x00000000#32 + _ = _
  rw [Ideal.ofBits_zero_f32, zero_add]
  unfold Cert.SoftKnn.tot
  refine Finset.sum_congr rfl fun k _ => ?_
  have e : idx_main_v22 (ix2 p u) k = ix3 p u k :=
    funext fun a => Fin.ext (by match a with | ⟨0, _⟩ => rfl | ⟨1, _⟩ => rfl | ⟨2, _⟩ => rfl)
  rw [e, v21_at]

/-- The totals spread along the `V`-row axis. -/
private theorem v24_at (U V : Arr) (p : Fin 8) (u j : Fin 256) :
    val_main_v24 (F := Ideal) U V (ix3 p u j) = tot U V p u := by
  rw [val_main_v24_apply, val_main_v23_apply]
  have e : idx_main_v23 (idx_main_v24 (ix3 p u j)) = ix2 p u :=
    funext fun a => Fin.ext (by match a with | ⟨0, _⟩ => rfl | ⟨1, _⟩ => rfl)
  rw [e, v22_at]

/-- The softmax weights. -/
private theorem v25_at (U V : Arr) (p : Fin 8) (u j : Fin 256) :
    val_main_v25 (F := Ideal) U V (ix3 p u j) = score U V p u j := by
  rw [val_main_v25_apply, v21_at, v24_at]
  rfl

/-- The mixtures: the contraction of the weights with `V`'s rows, pair by pair. -/
private theorem v26_at (U V : Arr) (p : Fin 8) (u : Fin 256) (f : Fin 12544) :
    val_main_v26 (F := Ideal) U V (ix3 p u f) = blend U V p u f := by
  rw [val_main_v26_apply]
  unfold Cert.SoftKnn.blend
  refine Finset.sum_congr rfl fun k _ => ?_
  have el : lidx_main_v26 (ix3 p u f) k = ix3 p u k :=
    funext fun a => Fin.ext (by match a with | ⟨0, _⟩ => rfl | ⟨1, _⟩ => rfl | ⟨2, _⟩ => rfl)
  have er : ridx_main_v26 (ix3 p u f) k = ix3 p k f :=
    funext fun a => Fin.ext (by match a with | ⟨0, _⟩ => rfl | ⟨1, _⟩ => rfl | ⟨2, _⟩ => rfl)
  rw [el, er, v25_at]

/-- A row below 2048 of the result is a row of `U`: row `r` is row `r % 256` of pair `r / 256`. -/
private theorem v29_lo (U V : Arr) (i : S4096x12544.Idx) (h : (i 0).val < 2048) :
    val_main_v29 (F := Ideal) U V i
      = U (ix3 (⟨(i 0).val / 256, by omega⟩ : Fin 8) (⟨(i 0).val % 256, Nat.mod_lt _ (by decide)⟩ : Fin 256) (i 1)) := by
  unfold val_main_v29
  generalize val_main_v28 (F := Ideal) U V = y
  refine (concatenate_pair_apply_left (0 : Fin S4096x12544.rank) (val_main_v27 (F := Ideal) U) y
    concatenates_S2048x12544_S2048x12544_S4096x12544_d0 i rfl (ix2 (⟨(i 0).val, h⟩ : Fin 2048) (i 1)) (fun b => by
      match b with | ⟨0, _⟩ => rfl | ⟨1, _⟩ => rfl)).trans ?_
  rw [val_main_v27_apply]
  refine congrArg U (funext fun a => Fin.ext ?_)
  have h1 : (i 1).val < 12544 := (i 1).isLt
  match a with
  | ⟨0, _⟩ => show ((i 0).val * 12544 + (i 1).val) / 3211264 = (i 0).val / 256; omega
  | ⟨1, _⟩ => show ((i 0).val * 12544 + (i 1).val) / 12544 % 256 = (i 0).val % 256; omega
  | ⟨2, _⟩ => show ((i 0).val * 12544 + (i 1).val) % 12544 = (i 1).val; omega

/-- A row from 2048 on is a mixture's row: row `2048 + r` is the mixture of row `r % 256` of pair `r / 256`. -/
private theorem v29_hi (U V : Arr) (i : S4096x12544.Idx) (h : ¬ (i 0).val < 2048) :
    val_main_v29 (F := Ideal) U V i
      = blend U V (⟨((i 0).val - 2048) / 256, by have h0 : (i 0).val < 4096 := (i 0).isLt; show ((i 0).val - 2048) / 256 < 8; omega⟩ : Fin 8)
          (⟨((i 0).val - 2048) % 256, Nat.mod_lt _ (by decide)⟩ : Fin 256) (i 1) := by
  unfold val_main_v29
  generalize val_main_v27 (F := Ideal) U = x
  have h0 : (i 0).val < 4096 := (i 0).isLt
  have h1 : (i 1).val < 12544 := (i 1).isLt
  have hr : (i 0).val - 2048 < 2048 := by omega
  refine (concatenate_pair_apply_right (0 : Fin S4096x12544.rank) x (val_main_v28 (F := Ideal) U V)
    concatenates_S2048x12544_S2048x12544_S4096x12544_d0 i rfl rfl (ix2 (⟨(i 0).val - 2048, hr⟩ : Fin 2048) (i 1)) (fun b hb => by
      match b with | ⟨0, _⟩ => exact absurd rfl hb | ⟨1, _⟩ => rfl)
    (by show (i 0).val - 2048 + 2048 = (i 0).val; omega)).trans ?_
  rw [val_main_v28_apply]
  have e : idx_main_v28 (ix2 (⟨(i 0).val - 2048, hr⟩ : Fin 2048) (i 1))
      = ix3 (⟨((i 0).val - 2048) / 256, by show ((i 0).val - 2048) / 256 < 8; omega⟩ : Fin 8)
          (⟨((i 0).val - 2048) % 256, Nat.mod_lt _ (by decide)⟩ : Fin 256) (i 1) :=
    funext fun a => Fin.ext (by
      match a with
      | ⟨0, _⟩ => show (((i 0).val - 2048) * 12544 + (i 1).val) / 3211264 = ((i 0).val - 2048) / 256; omega
      | ⟨1, _⟩ => show (((i 0).val - 2048) * 12544 + (i 1).val) / 12544 % 256 = ((i 0).val - 2048) % 256; omega
      | ⟨2, _⟩ => show (((i 0).val - 2048) * 12544 + (i 1).val) % 12544 = (i 1).val; omega)
  rw [e]
  exact v26_at U V _ _ _

/-- The reference's last stage, at the extended reals, is `result` of its two arguments. -/
theorem ref_eq (U V : (⟨S8x256x12544, .f32⟩ : BufTy).Contents (Elt Ideal)) :
    val_main_v29 (F := Ideal) U V = (fun i : S4096x12544.Idx => result U V i) := by
  funext i
  show _ = result U V i
  unfold Cert.SoftKnn.result
  by_cases h : (i 0).val < 2048
  · rw [dif_pos h]; exact v29_lo U V i h
  · rw [dif_neg h]; exact v29_hi U V i h

end Cert.ReferenceIdeal.RefValue

end
-- ==== Proof.lean ====
/-
  The kernel and its reference compute one function over the extended reals.

  Both take eight pairs of feature arrays `U`, `V` (256 rows of 12544 features each) and return 4096 rows: `U`'s rows,
  then for each row `u` of `U` the mixture Σ_j score(u, j)·V_j, where score is the softmax over `j` of the scaled squared
  distance (‖u‖² + ‖v_j‖² − 2 u·v_j)·c (`Proof/Spec.lean`). The reference does so with whole-array host operations; the
  kernel in two passes, the first copying `V` at a narrower float format and summing the squares of its rows, the second, a
  tile of 64 rows of `U` at a time, forming the distances from one matrix product, normalizing their exponentials and
  mixing by a second product. Over the extended reals a change of float format is the identity, a matrix product into a
  zero accumulator and a lane reduction are plain sums, and every other operation is the same on both sides, applied in the
  same order to the same values: the two results are equal term by term, with no use of the inputs' finiteness.
  `Proof/RefValue.lean` reads the reference's stages as that function, `Proof/Prep.lean`, `Proof/KnnBody.lean` and
  `Proof/KnnValue.lean` the two passes, `Proof/KernelValue.lean` the program's result array at the return.
-/
import proofs.«421647_j80590766342750_3_alg».proof.Defs
import proofs.«421647_j80590766342750_3_alg».proof.Proof.Gen.Kernel
import proofs.«421647_j80590766342750_3_alg».proof.Proof.Gen.Kernel.Frame
import proofs.«421647_j80590766342750_3_alg».proof.Proof.Gen.KernelIdeal
import proofs.«421647_j80590766342750_3_alg».proof.Proof.Gen.KernelIdeal.Frame
import proofs.«421647_j80590766342750_3_alg».proof.Proof.Gen.ReferenceIdeal
import proofs.«421647_j80590766342750_3_alg».proof.Proof.Gen.Pre_finite_inputs
import proofs.«421647_j80590766342750_3_alg».proof.Proof.KernelRun
import proofs.«421647_j80590766342750_3_alg».proof.Proof.KernelValue
import proofs.«421647_j80590766342750_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing of the kernel's text was rewritten for the reading over the extended reals. -/
theorem preserves : Cert.preserves_Kernel_KernelIdeal := trivial

/-- Run from memories that agree on `U` and `V`, the kernel's result array ends at `result U V` (the run with its result,
    then the array read back through the two passes) and so does the reference's (its run, then its stages read). -/
theorem algebraic : Cert.algebraic_KernelIdeal_ReferenceIdeal := by
  intro m ρ m' ρ' _ hagree
  refine ⟨fun c => (fun i : Cert.KernelIdeal.S4096x12544.Idx => Cert.SoftKnn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) i), ?_, ?_⟩
  · exact (θ_run Cert.KernelIdeal.defs _ _).mono
      (fun _ h c => ⟨(h c).1.trans (Cert.KernelIdeal.Whole.result_at_return m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v29_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
